-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S50000x3 .f32) (main_arg2 : FVec F S257x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x1 .f32) (main_arg11 : FVec F S1 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg2
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S800000x4 : Shape := ⟨2, ![800000, 4]⟩
abbrev S1x128 : Shape := ⟨2, ![1, 128]⟩
abbrev S1x1 : Shape := ⟨2, ![1, 1]⟩
abbrev S4000x128 : Shape := ⟨2, ![4000, 128]⟩
abbrev S4000x4 : Shape := ⟨2, ![4000, 4]⟩
abbrev S4000x3 : Shape := ⟨2, ![4000, 3]⟩
abbrev S4000x1 : Shape := ⟨2, ![4000, 1]⟩
abbrev S2000x128 : Shape := ⟨2, ![2000, 128]⟩
abbrev S2000x3 : Shape := ⟨2, ![2000, 3]⟩

abbrev nBuf : Space → Nat
  | .hbm => 81
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S257x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x3, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x3, .f32⟩
  | .hbm, ⟨53, _⟩ => ⟨S800000x3, .f32⟩
  | .hbm, ⟨54, _⟩ => ⟨S800000x3, .f32⟩
  | .hbm, ⟨55, _⟩ => ⟨S_, .f32⟩
  | .hbm, ⟨56, _⟩ => ⟨S800000, .f32⟩
  | .hbm, ⟨57, _⟩ => ⟨S800000x1, .f32⟩
  | .hbm, ⟨58, _⟩ => ⟨S800000x4, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x1, .f32⟩
  | .hbm, ⟨65, _⟩ => ⟨S800000x128, .f32⟩
  | .hbm, ⟨66, _⟩ => ⟨S800000x3, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S50000x3, .f32⟩
  | .hbm, ⟨73, _⟩ => ⟨S800000x1, .i32⟩
  | .hbm, ⟨74, _⟩ => ⟨S50000x3, .f32⟩
  | .hbm, ⟨75, _⟩ => ⟨S128x128, .f32⟩
  | .hbm, ⟨76, _⟩ => ⟨S128x128, .f32⟩
  | .hbm, ⟨77, _⟩ => ⟨S1x128, .f32⟩
  | .hbm, ⟨78, _⟩ => ⟨S1x128, .f32⟩
  | .hbm, ⟨79, _⟩ => ⟨S50000x128, .f32⟩
  | .hbm, ⟨80, _⟩ => ⟨S50000x3, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x4, .f32⟩
  | .local _ .vmem, ⟨5, _⟩ => ⟨S4000x4, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S4000x128, .f32⟩
  | .local _ .vmem, ⟨15, _⟩ => ⟨S4000x128, .f32⟩
  | .local _ .vmem, ⟨16, _⟩ => ⟨S4000x3, .f32⟩
  | .local _ .vmem, ⟨17, _⟩ => ⟨S4000x3, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x3, .f32⟩
  | .local _ .vmem, ⟨23, _⟩ => ⟨S2000x3, .f32⟩
  | .local _ .vmem, ⟨24, _⟩ => ⟨S2000x3, .f32⟩
  | .local _ .vmem, ⟨25, _⟩ => ⟨S2000x3, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x3, .f32⟩
  | .local _ .vmem, ⟨34, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32
abbrev cc1_sem10_0 : DmaSem sig := 33
abbrev cc1_sem10_1 : DmaSem sig := 34

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x1_S800000x3_S800000x4_d1 : Shape.Concatenates [S800000x1, S800000x3] S800000x4 1
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x1 : S4000x4.Slices ![0, 0] S4000x1
  slices_S4000x4_o0_1_S4000x3 : S4000x4.Slices ![0, 1] S4000x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x3 : S4000x1.Broadcasts S4000x3
  inb_S4000x3_S4000x3_0_0 : ∀ a, (![0, 0] : Fin 2 → Nat) a + S4000x3.size a ≤ S4000x3.size a
  h_S4000x3 : 0 < S4000x3.numel
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S800000x4.size a
  hwx0_2 : ∀ i : grid0.Coords, EltTy.bits .f32 = 32 ∨ (Rect.block (s := S800000x4) S4000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .f32 = 32 ∨ (Rect.block (s := S800000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x3.size a ≤ S800000x3.size a
  hwx0_12 : ∀ i : grid0.Coords, EltTy.bits .f32 = 32 ∨ (Rect.block (s := S800000x3) S4000x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S50000x3.size a
  hwx1_10 : ∀ i : grid1.Coords, EltTy.bits .f32 = 32 ∨ (Rect.block (s := S50000x3) S2000x3.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v43_1) S4000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v54_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S50000x3, .f32⟩
  | 2 => ⟨S257x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S2x800000, .i32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x257, .f32⟩
  | 59 => ⟨S800000x128, .f32⟩
  | 60 => ⟨S1x128, .f32⟩
  | 61 => ⟨S800000x128, .f32⟩
  | 62 => ⟨S800000x128, .f32⟩
  | 63 => ⟨S800000x128, .f32⟩
  | 64 => ⟨S800000x128, .f32⟩
  | 65 => ⟨S_, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S800000x128, .f32⟩
  | 72 => ⟨S800000x128, .f32⟩
  | 73 => ⟨S1x128, .f32⟩
  | 74 => ⟨S800000x128, .f32⟩
  | 75 => ⟨S800000x128, .f32⟩
  | 76 => ⟨S800000x128, .f32⟩
  | 77 => ⟨S800000x128, .f32⟩
  | 78 => ⟨S_, .f32⟩
  | 79 => ⟨S800000x128, .f32⟩
  | 80 => ⟨S800000x128, .f32⟩
  | 81 => ⟨S_, .f32⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x256, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S800000x1, .f32⟩
  | 108 => ⟨S1x1, .f32⟩
  | 109 => ⟨S800000x1, .f32⟩
  | 110 => ⟨S800000x1, .f32⟩
  | 111 => ⟨S800000x1, .f32⟩
  | 112 => ⟨S800000x1, .f32⟩
  | 113 => ⟨S_, .f32⟩
  | 114 => ⟨S800000x1, .f32⟩
  | 115 => ⟨S800000x1, .f32⟩
  | 116 => ⟨S_, .f32⟩
  | 117 => ⟨S800000x1, .f32⟩
  | 118 => ⟨S800000x1, .f32⟩
  | 119 => ⟨S800000x1, .f32⟩
  | 120 => ⟨S800000x3, .f32⟩
  | 121 => ⟨S800000x3, .f32⟩
  | 122 => ⟨S_, .f32⟩
  | 123 => ⟨S50000x3, .f32⟩
  | 124 => ⟨S800000x1, .i32⟩
  | 125 => ⟨S50000x3, .f32⟩
  | 126 => ⟨S_, .f32⟩
  | 127 => ⟨S50000x3, .f32⟩
  | _ => ⟨S50000x128, .f32⟩

abbrev hbmTy0_1 (i : Nat) : BufTy := match i % 128 with
  | 0 => ⟨S50000x3, .f32⟩
  | 1 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_17 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The mathematics of one message-passing layer, row by row, on the extended reals.

  An edge `e` carries the two gathered feature rows `xr`, `xc` (128 entries each), the squared distance `d` and the
  three coordinate differences. Its message is two dense layers with the activation `silu v = v · σ(v)`,
  `σ(v) = 1 / (1 + e^(−v))`; the first layer's weight matrix has 257 rows, which act on `xr`, on `xc` and on `d`
  separately: `[xr, xc, d] · W = xr · W[0:128] + xc · W[128:256] + d · W[256]`. A node's update is again two dense layers on
  the node's own row joined with its aggregated messages, the first weight matrix (256 rows) acting on the two halves
  separately. The only algebra below is that a sum over 257 (or 256) indices is the sum of its consecutive stretches:
  associativity of `+` on the extended reals, no cancellation, so nothing here needs an entry to be finite.
-/
import Idealize.ShloMosaic.PureOps.Ideal
import Idealize.ShloMosaic.PureOps.Ideal.Laws
import Idealize.ShloMosaic.Lib.IdealHost
import Idealize.ShloMosaic.Lib.ValueIdx
import Mathlib.Algebra.BigOperators.Fin

noncomputable section

namespace Cert.Egnn

open Idealize.ShloMosaic Idealize.ShloMosaic.ValueIdx

/-- `v · σ(v)` with `σ` the logistic function, on the extended reals. -/
def silu (v : EReal) : EReal := v * Ideal.logistic v

/-- The logistic function spelled as a quotient is the same function: `1 / (1 + e^(−v))`. -/
theorem silu_quot (v : EReal) : v * Ideal.div 1 (1 + Ideal.exp (-v)) = silu v := rfl

/-- The step size of the coordinate update: the binary32 word both programs carry for `0.01`. -/
def stepSize : EReal := Ideal.ofBits .f32 0x3C23D70A#32

/-- The first edge layer before its activation, at output channel `j`: the two gathered rows against the two
    128-row stretches `A`, `B` of the weight matrix, the squared distance against its last row `C`, and the bias. -/
def edgeH1 (xr xc : Fin 128 → EReal) (d : EReal) (A B : Fin 128 → Fin 128 → EReal) (C b : Fin 128 → EReal)
    (j : Fin 128) : EReal :=
  (((∑ k, xr k * A k j) + (∑ k, xc k * B k j)) + d * C j) + b j

/-- The edge's message at channel `j`: the second layer over the activated first layer, activated. -/
def edgeM (xr xc : Fin 128 → EReal) (d : EReal) (A B : Fin 128 → Fin 128 → EReal) (C b : Fin 128 → EReal)
    (W : Fin 128 → Fin 128 → EReal) (b' : Fin 128 → EReal) (j : Fin 128) : EReal :=
  silu ((∑ k, silu (edgeH1 xr xc d A B C b k) * W k j) + b' j)

/-- The edge's coordinate gate: one more dense layer from the message to a single activated number. -/
def edgeW (xr xc : Fin 128 → EReal) (d : EReal) (A B : Fin 128 → Fin 128 → EReal) (C b : Fin 128 → EReal)
    (W : Fin 128 → Fin 128 → EReal) (b' : Fin 128 → EReal) (wc : Fin 128 → EReal) (bc : EReal) : EReal :=
  silu ((∑ k, edgeM xr xc d A B C b W b' k * wc k) + bc)

/-- The first node layer before its activation: the node's row against `A`, its aggregated messages against `B`. -/
def nodeH (x a : Fin 128 → EReal) (A B : Fin 128 → Fin 128 → EReal) (b : Fin 128 → EReal) (j : Fin 128) : EReal :=
  ((∑ k, x k * A k j) + (∑ k, a k * B k j)) + b j

/-- The node's new feature at channel `j`. -/
def nodeX (x a : Fin 128 → EReal) (A B : Fin 128 → Fin 128 → EReal) (b : Fin 128 → EReal)
    (W : Fin 128 → Fin 128 → EReal) (b' : Fin 128 → EReal) (j : Fin 128) : EReal :=
  (∑ k, silu (nodeH x a A B b k) * W k j) + b' j

/-- A sum over 256 indices is the sum over the first 128 plus the sum over the last 128. -/
theorem sum_split_256 (f : Fin 256 → EReal) :
    ∑ k, f k = (∑ k : Fin 128, f ⟨k.val, by omega⟩) + ∑ k : Fin 128, f ⟨128 + k.val, by omega⟩ :=
  Fin.sum_univ_add (a := 128) (b := 128) (f : Fin (128 + 128) → EReal)

/-- A sum over 257 indices is the two 128-stretches and the last term. -/
theorem sum_split_257 (f : Fin 257 → EReal) :
    ∑ k, f k = ((∑ k : Fin 128, f ⟨k.val, by omega⟩) + ∑ k : Fin 128, f ⟨128 + k.val, by omega⟩) + f ⟨256, by omega⟩ := by
  rw [Fin.sum_univ_castSucc (n := 256) f, sum_split_256 fun k => f k.castSucc]
  rfl

/-! ## The same functions over whole arrays

  Generic in the number of rows `n`: at `n = 4000` (resp. `2000`) these are a kernel block's contents, at `n = 800000`
  (resp. `50000`) the whole arrays. Row `i 0` of the result depends on row `i 0` of the row-indexed operands only. -/

/-- A two-dimensional array with `n` rows and `w` columns of extended reals. -/
abbrev Arr (n w : ℕ) : Type := (⟨2, ![n, w]⟩ : Shape).Idx → EReal

/-- A one-dimensional array of `w` extended reals. -/
abbrev Arr1 (w : ℕ) : Type := (⟨1, ![w]⟩ : Shape).Idx → EReal

/-- The squared distance (one column) and the three coordinate differences side by side: column 0, then columns 1 to 3. -/
def joinDR {n : ℕ} (d : Arr n 1) (r : Arr n 3) : Arr n 4 := fun i =>
  if h : (i 1).val = 0 then d (ix2 (n0 := n) (i 0) (0 : Fin 1))
  else r (ix2 (n0 := n) (i 0) (⟨(i 1).val - 1, by have := (i 1).isLt; change (i 1).val < 4 at this; omega⟩ : Fin 3))

/-- The `h` consecutive rows of a matrix that start at row `o`. -/
def rowsFrom {R w : ℕ} (o h : ℕ) (ho : o + h ≤ R) (x : Arr R w) : Arr h w := fun i =>
  x (ix2 (⟨o + (i 0).val, by have := (i 0).isLt; change (i 0).val < h at this; omega⟩ : Fin R) (n1 := w) (i 1))

/-- A vector read as a matrix of one row. -/
def asRow {w : ℕ} (b : Arr1 w) : Arr 1 w := fun i => b (ix1 (n := w) (i 1))

/-- Every edge's message. `ex` holds the squared distance in column 0. -/
def edgeMArr {n : ℕ} (xr xc : Arr n 128) (ex : Arr n 4) (A B : Arr 128 128) (C b : Arr 1 128) (W : Arr 128 128) (b' : Arr 1 128) :
    Arr n 128 := fun i =>
  edgeM (fun k => xr (ix2 (n0 := n) (i 0) k)) (fun k => xc (ix2 (n0 := n) (i 0) k)) (ex (ix2 (n0 := n) (i 0) (0 : Fin 4)))
    (fun k j => A (ix2 k j)) (fun k j => B (ix2 k j)) (fun j => C (ix2 (0 : Fin 1) j)) (fun j => b (ix2 (0 : Fin 1) j))
    (fun k j => W (ix2 k j)) (fun j => b' (ix2 (0 : Fin 1) j)) (i 1)

/-- Every edge's translation: the coordinate differences (columns 1 to 3 of `ex`) times the edge's gate. -/
def edgeTArr {n : ℕ} (xr xc : Arr n 128) (ex : Arr n 4) (A B : Arr 128 128) (C b : Arr 1 128) (W : Arr 128 128) (b' : Arr 1 128)
    (wc : Arr 128 1) (bc : Arr 1 1) : Arr n 3 := fun i =>
  ex (ix2 (n0 := n) (i 0) (⟨1 + (i 1).val, by have := (i 1).isLt; change (i 1).val < 3 at this; omega⟩ : Fin 4))
    * edgeW (fun k => xr (ix2 (n0 := n) (i 0) k)) (fun k => xc (ix2 (n0 := n) (i 0) k)) (ex (ix2 (n0 := n) (i 0) (0 : Fin 4)))
        (fun k j => A (ix2 k j)) (fun k j => B (ix2 k j)) (fun j => C (ix2 (0 : Fin 1) j)) (fun j => b (ix2 (0 : Fin 1) j))
        (fun k j => W (ix2 k j)) (fun j => b' (ix2 (0 : Fin 1) j)) (fun k => wc (ix2 k (0 : Fin 1))) (bc (ix2 (0 : Fin 1) (0 : Fin 1)))

/-- Every node's new feature row. -/
def nodeXArr {n : ℕ} (x a : Arr n 128) (A B : Arr 128 128) (b : Arr 1 128) (W : Arr 128 128) (b' : Arr 1 128) : Arr n 128 := fun i =>
  nodeX (fun k => x (ix2 (n0 := n) (i 0) k)) (fun k => a (ix2 (n0 := n) (i 0) k)) (fun k j => A (ix2 k j)) (fun k j => B (ix2 k j))
    (fun j => b (ix2 (0 : Fin 1) j)) (fun k j => W (ix2 k j)) (fun j => b' (ix2 (0 : Fin 1) j)) (i 1)

/-- Every node's new position: the old one plus the step size times the aggregated translation. -/
def nodePArr {n : ℕ} (p d : Arr n 3) : Arr n 3 := fun i => p i + stepSize * d i

end Cert.Egnn

end
-- ==== Proof.LayoutRead.lean ====
/-
  A column broadcast read at an entry: a `[a, 1]` array broadcast to `[a, b]` holds, at `(p, c)`, the operand's entry
  `(p, 0)` — every column repeats the one column. (The row form `[1, b] → [a, b]` is the library's.)
-/
import Idealize.ShloMosaic.Lib.ValueLayout
import Idealize.ShloMosaic.Lib.Pipeline.Value

noncomputable section

namespace Cert.Egnn

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Egnn

end
-- ==== Proof.MatmulRead.lean ====
/-
  The kernels' three matrix products read at an entry.

  Each `tpu.matmul` of the two kernels contracts the second axis of its left operand with the first axis of its right
  operand, over 128 indices, into an accumulator of zeros. On the extended reals entry `(p, j)` of the result is
  therefore `∑ k, l[p, k] · r[k, j]`: the zero accumulator adds nothing, and the operand indices the contraction
  visits are `(p, k)` on the left and `(k, j)` on the right.
-/
import proofs.«117221_j38938173506036_1_alg».proof.Proof.Gen.KernelIdeal
import Idealize.ShloMosaic.Lib.ValueIdx
import Idealize.ShloMosaic.PureOps.Ideal.Laws

noncomputable section

namespace Cert.KernelIdeal.MatmulRead

open Cert.KernelIdeal Idealize.ShloMosaic Idealize.ShloMosaic.ValueIdx

/-! ### `[4000, 128] · [128, 128]` -/

theorem lhs_e_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_e_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_e_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_e_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, j)` of the product into a zero accumulator is the sum over the 128 contracted indices. -/
theorem mm_e {φ₁ φ₂ : FTy} (l : FVec Ideal S4000x128 φ₁) (r : FVec Ideal S128x128 φ₂) (p : Fin 4000) (j : Fin 128) :
    matmul dot_S4000x128_S128x128_S4000x128_1_0_0_1_n_n none l r (constant S4000x128 .f32 0x00000000#32) (ix2 p j)
      = ∑ k : Fin 128, l (ix2 p k) * r (ix2 k j) := by
  refine (Ideal.matmul_constant_zero_apply dot_S4000x128_S128x128_S4000x128_1_0_0_1_n_n none l r (ix2 p j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact lhs_e_0 _ _
    | ⟨1, _⟩ => exact (lhs_e_1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (rhs_e_0 _ _).trans hk
    | ⟨1, _⟩ => exact rhs_e_1 _ _)
  rw [el, er]

/-! ### `[4000, 128] · [128, 1]` -/

theorem lhs_g_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_g_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_g_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_g_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- Entry `(p, j)` of the product into a zero accumulator is the sum over the 128 contracted indices. -/
theorem mm_g {φ₁ φ₂ : FTy} (l : FVec Ideal S4000x128 φ₁) (r : FVec Ideal S128x1 φ₂) (p : Fin 4000) (j : Fin 1) :
    matmul dot_S4000x128_S128x1_S4000x1_1_0_0_1_n_n none l r (constant S4000x1 .f32 0x00000000#32) (ix2 p j)
      = ∑ k : Fin 128, l (ix2 p k) * r (ix2 k j) := by
  refine (Ideal.matmul_constant_zero_apply dot_S4000x128_S128x1_S4000x1_1_0_0_1_n_n none l r (ix2 p j)).trans ?_
  rw [← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p j) ((contrEquiv1 dot_S4000x128_S128x1_S4000x1_1_0_0_1_n_n 128 rfl rfl).symm k) = ix2 p k := funext fun a => Fin.ext (by
    match a with
    | ⟨0, _⟩ => exact lhs_g_0 _ _
    | ⟨1, _⟩ => exact (lhs_g_1 _ _).trans hk)
  have er : dot_S4000x128_S128x1_S4000x1_1_0_0_1_n_n.rhsIdx (ix2 p j) ((contrEquiv1 dot_S4000x128_S128x1_S4000x1_1_0_0_1_n_n 128 rfl rfl).symm k) = ix2 k j := funext fun a => Fin.ext (by
    match a with
    | ⟨0, _⟩ => exact (rhs_g_0 _ _).trans hk
    | ⟨1, _⟩ => exact rhs_g_1 _ _)
  rw [el, er]

/-! ### `[2000, 128] · [128, 128]` -/

theorem lhs_n_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_n_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_n_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_n_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, j)` of the product into a zero accumulator is the sum over the 128 contracted indices. -/
theorem mm_n {φ₁ φ₂ : FTy} (l : FVec Ideal S2000x128 φ₁) (r : FVec Ideal S128x128 φ₂) (p : Fin 2000) (j : Fin 128) :
    matmul dot_S2000x128_S128x128_S2000x128_1_0_0_1_n_n none l r (constant S2000x128 .f32 0x00000000#32) (ix2 p j)
      = ∑ k : Fin 128, l (ix2 p k) * r (ix2 k j) := by
  refine (Ideal.matmul_constant_zero_apply dot_S2000x128_S128x128_S2000x128_1_0_0_1_n_n none l r (ix2 p j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun a => Fin.ext (by
    match a with
    | ⟨0, _⟩ => exact lhs_n_0 _ _
    | ⟨1, _⟩ => exact (lhs_n_1 _ _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun a => Fin.ext (by
    match a with
    | ⟨0, _⟩ => exact (rhs_n_0 _ _).trans hk
    | ⟨1, _⟩ => exact rhs_n_1 _ _)
  rw [el, er]

end Cert.KernelIdeal.MatmulRead

end
-- ==== Proof.EdgeBlock.lean ====
/-
  What the edge kernel's body computes from its loaded blocks, entry by entry.

  Row `r` of a 4000-row block is one edge. Entry `(r, j)` of the stored message block is `Egnn.edgeM` of row `r` of the
  two gathered feature blocks, of the squared distance `extra[r, 0]`, and of the weight blocks whole; entry `(r, a)` of
  the stored translation block is the coordinate difference `extra[r, 1 + a]` times the edge's gate `Egnn.edgeW`.
  The three matrix products start from a zero accumulator, so each is the plain sum over the contracted index; the
  changes of float format are the identity on the extended reals.
-/
import proofs.«117221_j38938173506036_1_alg».proof.Proof.Gen.KernelIdeal.Skeleton
import proofs.«117221_j38938173506036_1_alg».proof.Proof.Spec
import proofs.«117221_j38938173506036_1_alg».proof.Proof.LayoutRead
import proofs.«117221_j38938173506036_1_alg».proof.Proof.MatmulRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBlock

open Cert.KernelIdeal Cert.KernelIdeal.Gen Cert.Egnn Idealize.ShloMosaic Idealize.ShloMosaic.ValueIdx

/-- The vector logistic at an entry. -/
theorem logistic_at {s : Shape} {φ : FTy} (x : FVec Ideal s φ) (i : s.Idx) : logistic x i = Ideal.logistic (x i) := rfl

/-- Column 0 of the 4-column block. -/
theorem slice_d (v : S4000x4.Idx → EReal) (p : Fin 4000) :
    extractStridedSlice S4000x1 ![0, 0] v slices_S4000x4_o0_0_S4000x1 (ix2 p (0 : Fin 1)) = v (ix2 p (0 : Fin 4)) :=
  slice2_axis1_apply 0 v slices_S4000x4_o0_0_S4000x1 p (0 : Fin 1) (0 : Fin 4) rfl

/-- Columns 1 to 3 of the 4-column block. -/
theorem slice_r (v : S4000x4.Idx → EReal) (p : Fin 4000) (a : Fin 3) :
    extractStridedSlice S4000x3 ![0, 1] v slices_S4000x4_o0_1_S4000x3 (ix2 p a) = v (ix2 p (⟨1 + a.val, by omega⟩ : Fin 4)) :=
  slice2_axis1_apply 1 v slices_S4000x4_o0_1_S4000x3 p a ⟨1 + a.val, by omega⟩ rfl

/-- The message block at `(r, j)`. -/
theorem pay_m (x0 x1 : Vec Ideal S4000x128 .f32) (x2 : Vec Ideal S4000x4 .f32) (x3 x4 : Vec Ideal S128x128 .f32)
    (x5 x6 : Vec Ideal S1x128 .f32) (x7 : Vec Ideal S128x128 .f32) (x8 : Vec Ideal S1x128 .f32) (r : Fin 4000) (j : Fin 128) :
    k0_pay1 (F := Ideal) (k0_pay5 x0 x1 x2 x3 x4 x5 x6 x7) (k0_pay6 x8) (ix2 r j)
      = edgeM (fun k => x0 (ix2 r k)) (fun k => x1 (ix2 r k)) (x2 (ix2 r (0 : Fin 4)))
          (fun k j => x3 (ix2 k j)) (fun k j => x4 (ix2 k j)) (fun j => x5 (ix2 (0 : Fin 1) j)) (fun j => x6 (ix2 (0 : Fin 1) j))
          (fun k j => x7 (ix2 k j)) (fun j => x8 (ix2 (0 : Fin 1) j)) j := by
  unfold k0_pay1 k0_pay5 k0_pay6 k0_pay3
  simp only [mulf_apply, addf_apply, logistic_at, MatmulRead.mm_e, truncf_apply, shapeCast_self, broadcastTo_1b_ab_apply,
    broadcastTo_a1_ab_apply, slice_d]
  rfl

/-- The translation block at `(r, a)`. -/
theorem pay_t (x0 x1 : Vec Ideal S4000x128 .f32) (x2 : Vec Ideal S4000x4 .f32) (x3 x4 : Vec Ideal S128x128 .f32)
    (x5 x6 : Vec Ideal S1x128 .f32) (x7 : Vec Ideal S128x128 .f32) (x8 : Vec Ideal S1x128 .f32)
    (x9 : Vec Ideal S128x1 .f32) (x10 : Vec Ideal S1x1 .f32) (r : Fin 4000) (a : Fin 3) :
    k0_pay2 (F := Ideal) (k0_pay4 x2) (k0_pay5 x0 x1 x2 x3 x4 x5 x6 x7) (k0_pay6 x8) x9 x10 (ix2 r a)
      = x2 (ix2 r (⟨1 + a.val, by omega⟩ : Fin 4))
        * edgeW (fun k => x0 (ix2 r k)) (fun k => x1 (ix2 r k)) (x2 (ix2 r (0 : Fin 4)))
          (fun k j => x3 (ix2 k j)) (fun k j => x4 (ix2 k j)) (fun j => x5 (ix2 (0 : Fin 1) j)) (fun j => x6 (ix2 (0 : Fin 1) j))
          (fun k j => x7 (ix2 k j)) (fun j => x8 (ix2 (0 : Fin 1) j)) (fun k => x9 (ix2 k (0 : Fin 1))) (x10 (ix2 (0 : Fin 1) (0 : Fin 1))) := by
  unfold k0_pay2 k0_pay4 k0_pay3
  simp only [mulf_apply, addf_apply, logistic_at, MatmulRead.mm_g, truncf_apply, shapeCast_self, broadcastTo_1b_ab_apply,
    broadcastTo_a1_ab_apply, slice_r, pay_m]
  rfl

end Cert.KernelIdeal.EdgeBlock

end
-- ==== Proof.EdgeRegion.lean ====
/-
  The edge region's two output arrays as whole-array functions of the arrays the region finds.

  The grid has 200 points; point `t` works on rows `4000 t` to `4000 t + 3999` of the three row-indexed operands and of
  both outputs, and on the eight weight operands whole. A block's entry depends on its own row only, so what point `t`
  writes back is block `t` of one function of the whole arrays (`Egnn.edgeMArr`, `Egnn.edgeTArr` at 800000 rows), and
  the 200 blocks cover every row: the arrays after the region are those functions.
-/
import proofs.«117221_j38938173506036_1_alg».proof.Proof.KernelIdealFrame
import proofs.«117221_j38938173506036_1_alg».proof.Proof.EdgeBlock
import Idealize.ShloMosaic.Lib.Pipeline.Value

set_option maxRecDepth 16384

noncomputable section

namespace Cert.KernelIdeal.EdgeRegion

open Cert.KernelIdeal Cert.KernelIdeal.Gen Cert.KernelIdeal.GenP Cert.Egnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block rectangle are the constant function zero. -/
private theorem zero_off : (![0, 0] : Fin 2 → Nat) = fun _ => 0 := funext fun a => by fin_cases a <;> rfl

/-- The block index maps of the row-indexed windows, decided over the grid: point `t` is at block row `t`, block column 0. -/
private theorem row_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The block index maps of the weight windows, decided over the grid: every point is at block (0, 0). -/
private theorem whole_blocks : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## What each window's block reads of its array -/

/-- Entry `y` of block `t` of the first gathered-row array is the array's entry `4000 t` rows further down. -/
private theorem read_xr (c : Dev nD) (t : Fin cfg0.N) (y : S4000x128.Idx) (i : S800000x128.Idx)
    (h0 : (i 0).val = t.val * 4000 + (y 0).val) (h1 : (i 1).val = (y 1).val) :
    iblk0 V c 0 t y = V c main_v10 i := by
  have hemb : ((cfg0.win 0).blk t).view.emb y = i := by
    obtain ⟨e0, e1, -, -, -, -, -, -, -, -⟩ := row_blocks t
    funext a; apply Fin.ext
    match a with
    | ⟨0, _⟩ => show win0_0.index t (0 : Fin 2) * 4000 + 1 * (y 0).val = (i 0).val; omega
    | ⟨1, _⟩ => show win0_0.index t (1 : Fin 2) * 128 + 1 * (y 1).val = (i 1).val; omega
  show V c main_v10 (((cfg0.win 0).blk t).view.emb y) = V c main_v10 i
  rw [hemb]

/-- The same for the second gathered-row array. -/
private theorem read_xc (c : Dev nD) (t : Fin cfg0.N) (y : S4000x128.Idx) (i : S800000x128.Idx)
    (h0 : (i 0).val = t.val * 4000 + (y 0).val) (h1 : (i 1).val = (y 1).val) :
    iblk0 V c 1 t y = V c main_v17 i := by
  have hemb : ((cfg0.win 1).blk t).view.emb y = i := by
    obtain ⟨-, -, e0, e1, -, -, -, -, -, -⟩ := row_blocks t
    funext a; apply Fin.ext
    match a with
    | ⟨0, _⟩ => show win0_1.index t (0 : Fin 2) * 4000 + 1 * (y 0).val = (i 0).val; omega
    | ⟨1, _⟩ => show win0_1.index t (1 : Fin 2) * 128 + 1 * (y 1).val = (i 1).val; omega
  show V c main_v17 (((cfg0.win 1).blk t).view.emb y) = V c main_v17 i
  rw [hemb]

/-- The same for the four-column array of squared distances and coordinate differences. -/
private theorem read_ex (c : Dev nD) (t : Fin cfg0.N) (y : S4000x4.Idx) (i : S800000x4.Idx)
    (h0 : (i 0).val = t.val * 4000 + (y 0).val) (h1 : (i 1).val = (y 1).val) :
    iblk0 V c 2 t y = V c main_v36 i := by
  have hemb : ((cfg0.win 2).blk t).view.emb y = i := by
    obtain ⟨-, -, -, -, e0, e1, -, -, -, -⟩ := row_blocks t
    funext a; apply Fin.ext
    match a with
    | ⟨0, _⟩ => show win0_2.index t (0 : Fin 2) * 4000 + 1 * (y 0).val = (i 0).val; omega
    | ⟨1, _⟩ => show win0_2.index t (1 : Fin 2) * 4 + 1 * (y 1).val = (i 1).val; omega
  show V c main_v36 (((cfg0.win 2).blk t).view.emb y) = V c main_v36 i
  rw [hemb]

/-- The block of the first weight stretch is the array whole. -/
private theorem read_A (c : Dev nD) (t : Fin cfg0.N) : (iblk0 V c 3 t : Vec Ideal S128x128 .f32) = V c main_v37 := by
  funext y
  have hemb : ((cfg0.win 3).blk t).view.emb y = y := by
    obtain ⟨e0, e1, -, -, -, -, -, -, -, -, -, -, -, -, -, -⟩ := whole_blocks t
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  show V c main_v37 (((cfg0.win 3).blk t).view.emb y) = V c main_v37 y
  rw [hemb]

/-- The block of the second weight stretch is the array whole. -/
private theorem read_B (c : Dev nD) (t : Fin cfg0.N) : (iblk0 V c 4 t : Vec Ideal S128x128 .f32) = V c main_v38 := by
  funext y
  have hemb : ((cfg0.win 4).blk t).view.emb y = y := by
    obtain ⟨-, -, e0, e1, -, -, -, -, -, -, -, -, -, -, -, -⟩ := whole_blocks t
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  show V c main_v38 (((cfg0.win 4).blk t).view.emb y) = V c main_v38 y
  rw [hemb]

/-- The block of the distance row is the array whole. -/
private theorem read_C (c : Dev nD) (t : Fin cfg0.N) : (iblk0 V c 5 t : Vec Ideal S1x128 .f32) = V c main_v39 := by
  funext y
  have hemb : ((cfg0.win 5).blk t).view.emb y = y := by
    obtain ⟨-, -, -, -, e0, e1, -, -, -, -, -, -, -, -, -, -⟩ := whole_blocks t
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  show V c main_v39 (((cfg0.win 5).blk t).view.emb y) = V c main_v39 y
  rw [hemb]

/-- The block of the first bias is the array whole. -/
private theorem read_b (c : Dev nD) (t : Fin cfg0.N) : (iblk0 V c 6 t : Vec Ideal S1x128 .f32) = V c main_v40 := by
  funext y
  have hemb : ((cfg0.win 6).blk t).view.emb y = y := by
    obtain ⟨-, -, -, -, -, -, e0, e1, -, -, -, -, -, -, -, -⟩ := whole_blocks t
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  show V c main_v40 (((cfg0.win 6).blk t).view.emb y) = V c main_v40 y
  rw [hemb]

/-- The block of the second layer's weights is the array whole. -/
private theorem read_W (c : Dev nD) (t : Fin cfg0.N) : (iblk0 V c 7 t : Vec Ideal S128x128 .f32) = V c main_arg4 := by
  funext y
  have hemb : ((cfg0.win 7).blk t).view.emb y = y := by
    obtain ⟨-, -, -, -, -, -, -, -, e0, e1, -, -, -, -, -, -⟩ := whole_blocks t
    funext a; apply Fin.ext
    match a with
    | ⟨0, _⟩ => show win0_7.index t (0 : Fin 2) * 128 + 1 * (y 0).val = (y 0).val; omega
    | ⟨1, _⟩ => show win0_7.index t (1 : Fin 2) * 128 + 1 * (y 1).val = (y 1).val; omega
  show V c main_arg4 (((cfg0.win 7).blk t).view.emb y) = V c main_arg4 y
  rw [hemb]

/-- The block of the second bias is the array whole. -/
private theorem read_b' (c : Dev nD) (t : Fin cfg0.N) : (iblk0 V c 8 t : Vec Ideal S1x128 .f32) = V c main_v41 := by
  funext y
  have hemb : ((cfg0.win 8).blk t).view.emb y = y := by
    obtain ⟨-, -, -, -, -, -, -, -, -, -, e0, e1, -, -, -, -⟩ := whole_blocks t
    funext a; apply Fin.ext
    match a with
    | ⟨0, _⟩ => show win0_8.index t (0 : Fin 2) * 1 + 1 * (y 0).val = (y 0).val; omega
    | ⟨1, _⟩ => show win0_8.index t (1 : Fin 2) * 128 + 1 * (y 1).val = (y 1).val; omega
  show V c main_v41 (((cfg0.win 8).blk t).view.emb y) = V c main_v41 y
  rw [hemb]

/-- The block of the gate's weights is the array whole. -/
private theorem read_wc (c : Dev nD) (t : Fin cfg0.N) : (iblk0 V c 9 t : Vec Ideal S128x1 .f32) = V c main_arg10 := by
  funext y
  have hemb : ((cfg0.win 9).blk t).view.emb y = y := by
    obtain ⟨-, -, -, -, -, -, -, -, -, -, -, -, e0, e1, -, -⟩ := whole_blocks t
    funext a; apply Fin.ext
    match a with
    | ⟨0, _⟩ => show win0_9.index t (0 : Fin 2) * 128 + 1 * (y 0).val = (y 0).val; omega
    | ⟨1, _⟩ => show win0_9.index t (1 : Fin 2) * 1 + 1 * (y 1).val = (y 1).val; omega
  show V c main_arg10 (((cfg0.win 9).blk t).view.emb y) = V c main_arg10 y
  rw [hemb]

/-- The block of the gate's bias is the array whole. -/
private theorem read_bc (c : Dev nD) (t : Fin cfg0.N) : (iblk0 V c 10 t : Vec Ideal S1x1 .f32) = V c main_v42 := by
  funext y
  have hemb : ((cfg0.win 10).blk t).view.emb y = y := by
    obtain ⟨-, -, -, -, -, -, -, -, -, -, -, -, -, -, e0, e1⟩ := whole_blocks t
    funext a; apply Fin.ext
    match a with
    | ⟨0, _⟩ => show win0_10.index t (0 : Fin 2) * 1 + 1 * (y 0).val = (y 0).val; omega
    | ⟨1, _⟩ => show win0_10.index t (1 : Fin 2) * 1 + 1 * (y 1).val = (y 1).val; omega
  show V c main_v42 (((cfg0.win 10).blk t).view.emb y) = V c main_v42 y
  rw [hemb]

/-! ## One entry of a block's result, over any blocks that read their arrays at row `R` -/

/-- The message entry `(r, j)` of a block is the message array's entry `(R, j)` when row `r` of each row-indexed block is
    row `R` of its array. -/
private theorem m_entry (x0 x1 : Vec Ideal S4000x128 .f32) (x2 : Vec Ideal S4000x4 .f32) (x3 x4 : Vec Ideal S128x128 .f32)
    (x5 x6 : Vec Ideal S1x128 .f32) (x7 : Vec Ideal S128x128 .f32) (x8 : Vec Ideal S1x128 .f32)
    (X0 X1 : Arr 800000 128) (X2 : Arr 800000 4) (r : Fin 4000) (R : Fin 800000)
    (h0 : ∀ k : Fin 128, x0 (ix2 r k) = X0 (ix2 R k)) (h1 : ∀ k : Fin 128, x1 (ix2 r k) = X1 (ix2 R k))
    (h2 : ∀ a : Fin 4, x2 (ix2 r a) = X2 (ix2 R a)) (j : Fin 128) :
    k0_pay1 (F := Ideal) (k0_pay5 x0 x1 x2 x3 x4 x5 x6 x7) (k0_pay6 x8) (ix2 r j)
      = edgeMArr (n := 800000) X0 X1 X2 x3 x4 x5 x6 x7 x8 (ix2 R j) := by
  rw [EdgeBlock.pay_m, show (fun k => x0 (ix2 r k)) = (fun k => X0 (ix2 R k)) from funext h0,
    show (fun k => x1 (ix2 r k)) = (fun k => X1 (ix2 R k)) from funext h1, h2 (0 : Fin 4)]
  rfl

/-- The translation entry `(r, a)` of a block is the translation array's entry `(R, a)` under the same hypothesis. -/
private theorem t_entry (x0 x1 : Vec Ideal S4000x128 .f32) (x2 : Vec Ideal S4000x4 .f32) (x3 x4 : Vec Ideal S128x128 .f32)
    (x5 x6 : Vec Ideal S1x128 .f32) (x7 : Vec Ideal S128x128 .f32) (x8 : Vec Ideal S1x128 .f32)
    (x9 : Vec Ideal S128x1 .f32) (x10 : Vec Ideal S1x1 .f32)
    (X0 X1 : Arr 800000 128) (X2 : Arr 800000 4) (r : Fin 4000) (R : Fin 800000)
    (h0 : ∀ k : Fin 128, x0 (ix2 r k) = X0 (ix2 R k)) (h1 : ∀ k : Fin 128, x1 (ix2 r k) = X1 (ix2 R k))
    (h2 : ∀ a : Fin 4, x2 (ix2 r a) = X2 (ix2 R a)) (a : Fin 3) :
    k0_pay2 (F := Ideal) (k0_pay4 x2) (k0_pay5 x0 x1 x2 x3 x4 x5 x6 x7) (k0_pay6 x8) x9 x10 (ix2 r a)
      = edgeTArr (n := 800000) X0 X1 X2 x3 x4 x5 x6 x7 x8 x9 x10 (ix2 R a) := by
  rw [EdgeBlock.pay_t, show (fun k => x0 (ix2 r k)) = (fun k => X0 (ix2 R k)) from funext h0,
    show (fun k => x1 (ix2 r k)) = (fun k => X1 (ix2 R k)) from funext h1, h2 (0 : Fin 4), h2 ⟨1 + a.val, by omega⟩]
  rfl

/-! ## What a point writes back -/

/-- What point `t` writes back to the message array is block `t` of the message function of the whole arrays. -/
private theorem flushed_m (c : Dev nD) (t : Fin cfg0.N) :
    (dat0 V c).flushed 11 t = ((cfg0.win 11).blk t).view.read (Elt Ideal)
      (edgeMArr (n := 800000) (V c main_v10) (V c main_v17) (V c main_v36) (V c main_v37) (V c main_v38) (V c main_v39)
        (V c main_v40) (V c main_arg4) (V c main_v41)) := by
  show (cfg0.win 11).cut (grid0.coords t) ((dat0 V c).after 11 t) = _
  rw [after0_11]
  unfold out0_11
  rw [View.canon_unit_zero zero_off]
  simp only [View.ld_unit_zero (S := S4000x128) zero_off, View.ld_unit_zero (S := S4000x4) zero_off,
    View.ld_unit_zero (S := S128x128) zero_off, View.ld_unit_zero (S := S1x128) zero_off]
  rw [read_A V c t, read_B V c t, read_C V c t, read_b V c t, read_W V c t, read_b' V c t]
  refine funext fun (y : S4000x128.Idx) => ?_
  obtain ⟨r, j, rfl⟩ : ∃ (r : Fin 4000) (j : Fin 128), y = ix2 r j := ⟨y 0, y 1, eq_ix2 y⟩
  have ht : t.val < 200 := t.isLt
  have hr : r.val < 4000 := r.isLt
  have hemb : ((cfg0.win 11).blk t).view.emb (ix2 r j) = ix2 (⟨t.val * 4000 + r.val, by omega⟩ : Fin 800000) j := by
    obtain ⟨-, -, -, -, -, -, e0, e1, -, -⟩ := row_blocks t
    funext a; apply Fin.ext
    match a with
    | ⟨0, _⟩ => show win0_11.index t (0 : Fin 2) * 4000 + 1 * r.val = t.val * 4000 + r.val; omega
    | ⟨1, _⟩ => show win0_11.index t (1 : Fin 2) * 128 + 1 * j.val = j.val; omega
  rw [View.read_apply, hemb]
  exact m_entry (iblk0 V c 0 t) (iblk0 V c 1 t) (iblk0 V c 2 t) (V c main_v37) (V c main_v38) (V c main_v39) (V c main_v40)
    (V c main_arg4) (V c main_v41) (V c main_v10) (V c main_v17) (V c main_v36) r ⟨t.val * 4000 + r.val, by omega⟩
    (fun k => read_xr V c t (ix2 r k) (ix2 _ k) rfl rfl) (fun k => read_xc V c t (ix2 r k) (ix2 _ k) rfl rfl)
    (fun a => read_ex V c t (ix2 r a) (ix2 _ a) rfl rfl) j

/-- What point `t` writes back to the translation array is block `t` of the translation function of the whole arrays. -/
private theorem flushed_t (c : Dev nD) (t : Fin cfg0.N) :
    (dat0 V c).flushed 12 t = ((cfg0.win 12).blk t).view.read (Elt Ideal)
      (edgeTArr (n := 800000) (V c main_v10) (V c main_v17) (V c main_v36) (V c main_v37) (V c main_v38) (V c main_v39)
        (V c main_v40) (V c main_arg4) (V c main_v41) (V c main_arg10) (V c main_v42)) := by
  show (cfg0.win 12).cut (grid0.coords t) ((dat0 V c).after 12 t) = _
  rw [after0_12]
  unfold out0_12
  rw [View.canon_unit_zero zero_off]
  simp only [View.ld_unit_zero (S := S4000x128) zero_off, View.ld_unit_zero (S := S4000x4) zero_off,
    View.ld_unit_zero (S := S128x128) zero_off, View.ld_unit_zero (S := S1x128) zero_off,
    View.ld_unit_zero (S := S128x1) zero_off, View.ld_unit_zero (S := S1x1) zero_off]
  rw [read_A V c t, read_B V c t, read_C V c t, read_b V c t, read_W V c t, read_b' V c t, read_wc V c t, read_bc V c t]
  refine funext fun (y : S4000x3.Idx) => ?_
  obtain ⟨r, a, rfl⟩ : ∃ (r : Fin 4000) (a : Fin 3), y = ix2 r a := ⟨y 0, y 1, eq_ix2 y⟩
  have ht : t.val < 200 := t.isLt
  have hr : r.val < 4000 := r.isLt
  have hemb : ((cfg0.win 12).blk t).view.emb (ix2 r a) = ix2 (⟨t.val * 4000 + r.val, by omega⟩ : Fin 800000) a := by
    obtain ⟨-, -, -, -, -, -, -, -, e0, e1⟩ := row_blocks t
    funext d; apply Fin.ext
    match d with
    | ⟨0, _⟩ => show win0_12.index t (0 : Fin 2) * 4000 + 1 * r.val = t.val * 4000 + r.val; omega
    | ⟨1, _⟩ => show win0_12.index t (1 : Fin 2) * 3 + 1 * a.val = a.val; omega
  rw [View.read_apply, hemb]
  exact t_entry (iblk0 V c 0 t) (iblk0 V c 1 t) (iblk0 V c 2 t) (V c main_v37) (V c main_v38) (V c main_v39) (V c main_v40)
    (V c main_arg4) (V c main_v41) (V c main_arg10) (V c main_v42) (V c main_v10) (V c main_v17) (V c main_v36) r
    ⟨t.val * 4000 + r.val, by omega⟩
    (fun k => read_xr V c t (ix2 r k) (ix2 _ k) rfl rfl) (fun k => read_xc V c t (ix2 r k) (ix2 _ k) rfl rfl)
    (fun b => read_ex V c t (ix2 r b) (ix2 _ b) rfl rfl) a

/-! ## The blocks cover the arrays -/

/-- An index of the message array is in point `t`'s block iff each coordinate is in the block's range on its axis. -/
private theorem mem_blk_m (t : Fin cfg0.N) (i : S800000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v43_0).slice (win0_11.rect t)).set ↔ _
  rw [View.set_slice_whole, Rect.mem_set_unit]
  exact Iff.rfl

/-- The same for the translation array. -/
private theorem mem_blk_t (t : Fin cfg0.N) (i : S800000x3.Idx) :
    i ∈ ((cfg0.win 12).blk t).view.set ↔ ∀ a : Fin 2, win0_12.index t a * S4000x3.size a ≤ (i a).val
      ∧ (i a).val < win0_12.index t a * S4000x3.size a + S4000x3.size a := by
  show i ∈ ((View.whole main_v43_1).slice (win0_12.rect t)).set ↔ _
  rw [View.set_slice_whole, Rect.mem_set_unit]
  exact Iff.rfl

/-- Row `ρ` of the message array is in the block of point `ρ / 4000`, which writes back. -/
private theorem cover_m (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  obtain ⟨t, ht⟩ : ∃ t : Fin cfg0.N, t.val = (i 0).val / 4000 := ⟨⟨(i 0).val / 4000, by show _ < 200; omega⟩, rfl⟩
  refine ⟨t, flush0_11 t, ?_⟩
  rw [mem_blk_m]
  obtain ⟨-, -, -, -, -, -, e0, e1, -, -⟩ := row_blocks t
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- The same for the translation array. -/
private theorem cover_t (i : S800000x3.Idx) :
    ∃ t : Fin cfg0.N, (cfg0.win 12).flush t = true ∧ i ∈ ((cfg0.win 12).blk t).view.set := by
  have hi0 : (i 0).val < 800000 := (i 0).isLt
  have hi1 : (i 1).val < 3 := (i 1).isLt
  obtain ⟨t, ht⟩ : ∃ t : Fin cfg0.N, t.val = (i 0).val / 4000 := ⟨⟨(i 0).val / 4000, by show _ < 200; omega⟩, rfl⟩
  refine ⟨t, flush0_12 t, ?_⟩
  rw [mem_blk_t]
  obtain ⟨-, -, -, -, -, -, -, -, e0, e1⟩ := row_blocks t
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 3 ≤ (i 1).val ∧ (i 1).val < win0_12.index t (1 : Fin 2) * 3 + 3; omega

/-! ## The arrays after the region -/

/-- The message array after the region. -/
theorem m_arr (c : Dev nD) :
    (dat0 V c).arrAt 11 cfg0.N
      = edgeMArr (n := 800000) (V c main_v10) (V c main_v17) (V c main_v36) (V c main_v37) (V c main_v38) (V c main_v39)
          (V c main_v40) (V c main_arg4) (V c main_v41) :=
  (dat0 V c).arrAt_eq_of_cover 11 _ (fun t _ => flushed_m V c t) cover_m

/-- The translation array after the region. -/
theorem t_arr (c : Dev nD) :
    (dat0 V c).arrAt 12 cfg0.N
      = edgeTArr (n := 800000) (V c main_v10) (V c main_v17) (V c main_v36) (V c main_v37) (V c main_v38) (V c main_v39)
          (V c main_v40) (V c main_arg4) (V c main_v41) (V c main_arg10) (V c main_v42) :=
  (dat0 V c).arrAt_eq_of_cover 12 _ (fun t _ => flushed_t V c t) cover_t

end Cert.KernelIdeal.EdgeRegion

end
-- ==== Proof.NodeBlock.lean ====
/-
  What the node kernel's body computes from its loaded blocks, entry by entry.

  Row `r` of a 2000-row block is one node. Entry `(r, j)` of the stored feature block is `Egnn.nodeX` of row `r` of the
  node-feature block and of the aggregated-message block and of the weight blocks whole; entry `(r, a)` of the stored
  position block is the old position plus the step size times the aggregated translation.
-/
import proofs.«117221_j38938173506036_1_alg».proof.Proof.Gen.KernelIdeal.Skeleton
import proofs.«117221_j38938173506036_1_alg».proof.Proof.Spec
import proofs.«117221_j38938173506036_1_alg».proof.Proof.LayoutRead
import proofs.«117221_j38938173506036_1_alg».proof.Proof.MatmulRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBlock

open Cert.KernelIdeal Cert.KernelIdeal.Gen Cert.Egnn Idealize.ShloMosaic Idealize.ShloMosaic.ValueIdx

/-- The vector logistic at an entry. -/
theorem logistic_at {s : Shape} {φ : FTy} (x : FVec Ideal s φ) (i : s.Idx) : logistic x i = Ideal.logistic (x i) := rfl

/-- The new-feature block at `(r, j)`. -/
theorem pay_x (x0 x1 : Vec Ideal S2000x128 .f32) (x4 x5 : Vec Ideal S128x128 .f32) (x6 : Vec Ideal S1x128 .f32)
    (x7 : Vec Ideal S128x128 .f32) (x8 : Vec Ideal S1x128 .f32) (r : Fin 2000) (j : Fin 128) :
    k1_pay2 (F := Ideal) x0 x1 x4 x5 x6 x7 x8 (ix2 r j)
      = nodeX (fun k => x0 (ix2 r k)) (fun k => x1 (ix2 r k)) (fun k j => x4 (ix2 k j)) (fun k j => x5 (ix2 k j))
          (fun j => x6 (ix2 (0 : Fin 1) j)) (fun k j => x7 (ix2 k j)) (fun j => x8 (ix2 (0 : Fin 1) j)) j := by
  unfold k1_pay2
  simp only [mulf_apply, addf_apply, logistic_at, MatmulRead.mm_n, truncf_apply, shapeCast_self, broadcastTo_1b_ab_apply]
  rfl

/-- The new-position block at `(r, a)`. -/
theorem pay_p (x2 x3 : Vec Ideal S2000x3 .f32) (r : Fin 2000) (a : Fin 3) :
    k1_pay1 (F := Ideal) x2 (k1_pay3 x3) (ix2 r a) = x2 (ix2 r a) + stepSize * x3 (ix2 r a) := by
  unfold k1_pay1 k1_pay3
  simp only [mulf_apply, addf_apply, shapeCast_self, broadcast_apply]
  rfl

end Cert.KernelIdeal.NodeBlock

end
-- ==== Proof.NodeRegion.lean ====
/-
  The node region's two output arrays as whole-array functions of the arrays the region finds.

  The grid has 25 points; point `t` works on rows `2000 t` to `2000 t + 1999` of the four row-indexed operands and of
  both outputs, and on the five weight operands whole. A block's entry depends on its own row only, so what point `t`
  writes back is block `t` of one function of the whole arrays (`Egnn.nodeXArr`, `Egnn.nodePArr` at 50000 rows), and the
  25 blocks cover every row: the arrays after the region are those functions.
-/
import proofs.«117221_j38938173506036_1_alg».proof.Proof.KernelIdealFrame
import proofs.«117221_j38938173506036_1_alg».proof.Proof.NodeBlock
import Idealize.ShloMosaic.Lib.Pipeline.Value

set_option maxRecDepth 16384

noncomputable section

namespace Cert.KernelIdeal.NodeRegion

open Cert.KernelIdeal Cert.KernelIdeal.Gen Cert.KernelIdeal.GenP Cert.Egnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block rectangle, however they are spelt. -/
private theorem zero_offsets : (![0, 0] : Fin 2 → Nat) = fun _ => 0 := funext fun a => by fin_cases a <;> rfl

/-- The grid has 25 points. -/
private theorem point_lt (t : Fin cfg1.N) : t.val < 25 := lt_of_lt_of_eq t.isLt N_1

/-- The block index maps over the grid: a row-indexed window's block at point `t` is block `(t, 0)`, a weight
    window's is block `(0, 0)`. -/
private theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-! ## Each window's block at a point, as a read of its array -/

/-- Row `r` of the node-feature block at point `t` is row `2000 t + r` of the node-feature array. -/
private theorem feature_block (c : Dev nD) (t : Fin cfg1.N) (r : Fin 2000) (k : Fin 128) (h : 2000 * t.val + r.val < 50000) :
    (iblk1 V c 0 t : Vec Ideal S2000x128 .f32) (ix2 r k) = (V c main_arg0 : Arr 50000 128) (ix2 ⟨2000 * t.val + r.val, h⟩ k) := by
  show V c main_arg0 (((cfg1.win 0).blk t).view.emb (ix2 r k)) = _
  congr 1
  funext a; apply Fin.ext
  match a with
  | ⟨0, _⟩ => show win1_0.index t (0 : Fin 2) * 2000 + 1 * r.val = 2000 * t.val + r.val; rw [(block_indices t).1.1]; omega
  | ⟨1, _⟩ => show win1_0.index t (1 : Fin 2) * 128 + 1 * k.val = k.val; rw [(block_indices t).1.2]; omega

/-- Row `r` of the aggregated-message block at point `t` is row `2000 t + r` of the aggregated-message array. -/
private theorem message_block (c : Dev nD) (t : Fin cfg1.N) (r : Fin 2000) (k : Fin 128) (h : 2000 * t.val + r.val < 50000) :
    (iblk1 V c 1 t : Vec Ideal S2000x128 .f32) (ix2 r k) = (V c main_v46 : Arr 50000 128) (ix2 ⟨2000 * t.val + r.val, h⟩ k) := by
  show V c main_v46 (((cfg1.win 1).blk t).view.emb (ix2 r k)) = _
  congr 1
  funext a; apply Fin.ext
  match a with
  | ⟨0, _⟩ => show win1_1.index t (0 : Fin 2) * 2000 + 1 * r.val = 2000 * t.val + r.val; rw [(block_indices t).2.1.1]; omega
  | ⟨1, _⟩ => show win1_1.index t (1 : Fin 2) * 128 + 1 * k.val = k.val; rw [(block_indices t).2.1.2]; omega

/-- Row `r` of the position block at point `t` is row `2000 t + r` of the position array. -/
private theorem position_block (c : Dev nD) (t : Fin cfg1.N) (r : Fin 2000) (k : Fin 3) (h : 2000 * t.val + r.val < 50000) :
    (iblk1 V c 2 t : Vec Ideal S2000x3 .f32) (ix2 r k) = (V c main_arg1 : Arr 50000 3) (ix2 ⟨2000 * t.val + r.val, h⟩ k) := by
  show V c main_arg1 (((cfg1.win 2).blk t).view.emb (ix2 r k)) = _
  congr 1
  funext a; apply Fin.ext
  match a with
  | ⟨0, _⟩ => show win1_2.index t (0 : Fin 2) * 2000 + 1 * r.val = 2000 * t.val + r.val; rw [(block_indices t).2.2.1.1]; omega
  | ⟨1, _⟩ => show win1_2.index t (1 : Fin 2) * 3 + 1 * k.val = k.val; rw [(block_indices t).2.2.1.2]; omega

/-- Row `r` of the aggregated-translation block at point `t` is row `2000 t + r` of the aggregated-translation array. -/
private theorem translation_block (c : Dev nD) (t : Fin cfg1.N) (r : Fin 2000) (k : Fin 3) (h : 2000 * t.val + r.val < 50000) :
    (iblk1 V c 3 t : Vec Ideal S2000x3 .f32) (ix2 r k) = (V c main_v49 : Arr 50000 3) (ix2 ⟨2000 * t.val + r.val, h⟩ k) := by
  show V c main_v49 (((cfg1.win 3).blk t).view.emb (ix2 r k)) = _
  congr 1
  funext a; apply Fin.ext
  match a with
  | ⟨0, _⟩ => show win1_3.index t (0 : Fin 2) * 2000 + 1 * r.val = 2000 * t.val + r.val; rw [(block_indices t).2.2.2.1.1]; omega
  | ⟨1, _⟩ => show win1_3.index t (1 : Fin 2) * 3 + 1 * k.val = k.val; rw [(block_indices t).2.2.2.1.2]; omega

/-- The first weight block at every point is the first weight array whole. -/
private theorem weightA_block (c : Dev nD) (t : Fin cfg1.N) : (iblk1 V c 4 t : Vec Ideal S128x128 .f32) = V c main_v50 := by
  funext y
  show V c main_v50 (((cfg1.win 4).blk t).view.emb y) = V c main_v50 y
  congr 1
  funext a; apply Fin.ext
  match a with
  | ⟨0, _⟩ => show win1_4.index t (0 : Fin 2) * 128 + 1 * (y 0).val = (y 0).val; rw [(block_indices t).2.2.2.2.1.1]; omega
  | ⟨1, _⟩ => show win1_4.index t (1 : Fin 2) * 128 + 1 * (y 1).val = (y 1).val; rw [(block_indices t).2.2.2.2.1.2]; omega

/-- The second weight block at every point is the second weight array whole. -/
private theorem weightB_block (c : Dev nD) (t : Fin cfg1.N) : (iblk1 V c 5 t : Vec Ideal S128x128 .f32) = V c main_v51 := by
  funext y
  show V c main_v51 (((cfg1.win 5).blk t).view.emb y) = V c main_v51 y
  congr 1
  funext a; apply Fin.ext
  match a with
  | ⟨0, _⟩ => show win1_5.index t (0 : Fin 2) * 128 + 1 * (y 0).val = (y 0).val; rw [(block_indices t).2.2.2.2.2.1.1]; omega
  | ⟨1, _⟩ => show win1_5.index t (1 : Fin 2) * 128 + 1 * (y 1).val = (y 1).val; rw [(block_indices t).2.2.2.2.2.1.2]; omega

/-- The first bias block at every point is the first bias array whole. -/
private theorem bias_block (c : Dev nD) (t : Fin cfg1.N) : (iblk1 V c 6 t : Vec Ideal S1x128 .f32) = V c main_v52 := by
  funext y
  show V c main_v52 (((cfg1.win 6).blk t).view.emb y) = V c main_v52 y
  congr 1
  funext a; apply Fin.ext
  match a with
  | ⟨0, _⟩ => show win1_6.index t (0 : Fin 2) * 1 + 1 * (y 0).val = (y 0).val; rw [(block_indices t).2.2.2.2.2.2.1.1]; omega
  | ⟨1, _⟩ => show win1_6.index t (1 : Fin 2) * 128 + 1 * (y 1).val = (y 1).val; rw [(block_indices t).2.2.2.2.2.2.1.2]; omega

/-- The second-layer weight block at every point is the second-layer weight array whole. -/
private theorem weightW_block (c : Dev nD) (t : Fin cfg1.N) : (iblk1 V c 7 t : Vec Ideal S128x128 .f32) = V c main_arg8 := by
  funext y
  show V c main_arg8 (((cfg1.win 7).blk t).view.emb y) = V c main_arg8 y
  congr 1
  funext a; apply Fin.ext
  match a with
  | ⟨0, _⟩ => show win1_7.index t (0 : Fin 2) * 128 + 1 * (y 0).val = (y 0).val; rw [(block_indices t).2.2.2.2.2.2.2.1.1]; omega
  | ⟨1, _⟩ => show win1_7.index t (1 : Fin 2) * 128 + 1 * (y 1).val = (y 1).val; rw [(block_indices t).2.2.2.2.2.2.2.1.2]; omega

/-- The second-layer bias block at every point is the second-layer bias array whole. -/
private theorem bias'_block (c : Dev nD) (t : Fin cfg1.N) : (iblk1 V c 8 t : Vec Ideal S1x128 .f32) = V c main_v53 := by
  funext y
  show V c main_v53 (((cfg1.win 8).blk t).view.emb y) = V c main_v53 y
  congr 1
  funext a; apply Fin.ext
  match a with
  | ⟨0, _⟩ => show win1_8.index t (0 : Fin 2) * 1 + 1 * (y 0).val = (y 0).val; rw [(block_indices t).2.2.2.2.2.2.2.2.1.1]; omega
  | ⟨1, _⟩ => show win1_8.index t (1 : Fin 2) * 128 + 1 * (y 1).val = (y 1).val; rw [(block_indices t).2.2.2.2.2.2.2.2.1.2]; omega

/-! ## One entry of a block against one entry of the array -/

/-- Entry `(r, j)` of the body's feature block, over blocks whose row `r` is row `R` of the row-indexed arrays and
    whose weight blocks are the weight arrays: entry `(R, j)` of the whole-array function. -/
private theorem x_entry (x0 x1 : Vec Ideal S2000x128 .f32) (x4 x5 : Vec Ideal S128x128 .f32) (x6 : Vec Ideal S1x128 .f32)
    (x7 : Vec Ideal S128x128 .f32) (x8 : Vec Ideal S1x128 .f32)
    (a0 a1 : Arr 50000 128) (a4 a5 : Arr 128 128) (a6 : Arr 1 128) (a7 : Arr 128 128) (a8 : Arr 1 128)
    (r : Fin 2000) (R : Fin 50000) (j : Fin 128)
    (h0 : ∀ k, x0 (ix2 r k) = a0 (ix2 R k)) (h1 : ∀ k, x1 (ix2 r k) = a1 (ix2 R k))
    (h4 : x4 = a4) (h5 : x5 = a5) (h6 : x6 = a6) (h7 : x7 = a7) (h8 : x8 = a8) :
    k1_pay2 (F := Ideal) x0 x1 x4 x5 x6 x7 x8 (ix2 r j) = nodeXArr (n := 50000) a0 a1 a4 a5 a6 a7 a8 (ix2 R j) := by
  subst h4 h5 h6 h7 h8
  rw [NodeBlock.pay_x, show (fun k => x0 (ix2 r k)) = fun k => a0 (ix2 R k) from funext h0,
    show (fun k => x1 (ix2 r k)) = fun k => a1 (ix2 R k) from funext h1]
  rfl

/-- Entry `(r, a)` of the body's position block, over blocks whose row `r` is row `R` of the arrays. -/
private theorem p_entry (x2 x3 : Vec Ideal S2000x3 .f32) (a2 a3 : Arr 50000 3) (r : Fin 2000) (R : Fin 50000) (a : Fin 3)
    (h2 : x2 (ix2 r a) = a2 (ix2 R a)) (h3 : x3 (ix2 r a) = a3 (ix2 R a)) :
    k1_pay1 (F := Ideal) x2 (k1_pay3 x3) (ix2 r a) = nodePArr (n := 50000) a2 a3 (ix2 R a) := by
  rw [NodeBlock.pay_p, h2, h3]
  rfl

/-! ## What a point writes back -/

/-- Where entry `y` of the feature output's block at point `t` sits in the array: row `2000 t + y₀`. -/
private theorem x_block_emb (t : Fin cfg1.N) (r : Fin 2000) (j : Fin 128) (h : 2000 * t.val + r.val < 50000) :
    ((cfg1.win 9).blk t).view.emb (ix2 r j) = ix2 (n0 := 50000) (n1 := 128) ⟨2000 * t.val + r.val, h⟩ j := by
  funext a; apply Fin.ext
  match a with
  | ⟨0, _⟩ => show win1_9.index t (0 : Fin 2) * 2000 + 1 * r.val = 2000 * t.val + r.val; rw [(block_indices t).2.2.2.2.2.2.2.2.2.1.1]; omega
  | ⟨1, _⟩ => show win1_9.index t (1 : Fin 2) * 128 + 1 * j.val = j.val; rw [(block_indices t).2.2.2.2.2.2.2.2.2.1.2]; omega

/-- Where entry `y` of the position output's block at point `t` sits in the array. -/
private theorem p_block_emb (t : Fin cfg1.N) (r : Fin 2000) (j : Fin 3) (h : 2000 * t.val + r.val < 50000) :
    ((cfg1.win 10).blk t).view.emb (ix2 r j) = ix2 (n0 := 50000) (n1 := 3) ⟨2000 * t.val + r.val, h⟩ j := by
  funext a; apply Fin.ext
  match a with
  | ⟨0, _⟩ => show win1_10.index t (0 : Fin 2) * 2000 + 1 * r.val = 2000 * t.val + r.val; rw [(block_indices t).2.2.2.2.2.2.2.2.2.2.1]; omega
  | ⟨1, _⟩ => show win1_10.index t (1 : Fin 2) * 3 + 1 * j.val = j.val; rw [(block_indices t).2.2.2.2.2.2.2.2.2.2.2]; omega

/-- Point `t` writes back block `t` of the new-feature function of the arrays the region finds. -/
private theorem x_flushed (c : Dev nD) (t : Fin cfg1.N) :
    (dat1 V c).flushed 9 t = ((cfg1.win 9).blk t).view.read (Elt Ideal)
      (nodeXArr (n := 50000) (V c main_arg0) (V c main_v46) (V c main_v50) (V c main_v51) (V c main_v52) (V c main_arg8)
        (V c main_v53)) := by
  show (cfg1.win 9).cut (grid1.coords t) ((dat1 V c).after 9 t) = _
  rw [after1_9]
  unfold out1_9
  rw [View.canon_unit_zero zero_offsets]
  simp only [View.ld_unit_zero (S := S2000x128) zero_offsets, View.ld_unit_zero (S := S128x128) zero_offsets,
    View.ld_unit_zero (S := S1x128) zero_offsets]
  funext y
  have ht := point_lt t
  have hy : (y 0).val < 2000 := (y 0).isLt
  have hR : 2000 * t.val + (y 0).val < 50000 := by omega
  rw [eq_ix2 y]
  show k1_pay2 (F := Ideal) (iblk1 V c 0 t) (iblk1 V c 1 t) (iblk1 V c 4 t) (iblk1 V c 5 t) (iblk1 V c 6 t) (iblk1 V c 7 t)
      (iblk1 V c 8 t) (ix2 (y 0) (y 1))
    = nodeXArr (n := 50000) (V c main_arg0) (V c main_v46) (V c main_v50) (V c main_v51) (V c main_v52) (V c main_arg8)
        (V c main_v53) (((cfg1.win 9).blk t).view.emb (ix2 (y 0) (y 1)))
  rw [x_block_emb t (y 0) (y 1) hR]
  exact x_entry (iblk1 V c 0 t) (iblk1 V c 1 t) (iblk1 V c 4 t) (iblk1 V c 5 t) (iblk1 V c 6 t) (iblk1 V c 7 t)
    (iblk1 V c 8 t) (V c main_arg0) (V c main_v46) (V c main_v50) (V c main_v51) (V c main_v52) (V c main_arg8) (V c main_v53)
    (y 0) ⟨2000 * t.val + (y 0).val, hR⟩ (y 1)
    (fun k => feature_block V c t (y 0) k hR) (fun k => message_block V c t (y 0) k hR)
    (weightA_block V c t) (weightB_block V c t) (bias_block V c t) (weightW_block V c t) (bias'_block V c t)

/-- Point `t` writes back block `t` of the new-position function of the arrays the region finds. -/
private theorem p_flushed (c : Dev nD) (t : Fin cfg1.N) :
    (dat1 V c).flushed 10 t = ((cfg1.win 10).blk t).view.read (Elt Ideal)
      (nodePArr (n := 50000) (V c main_arg1) (V c main_v49)) := by
  show (cfg1.win 10).cut (grid1.coords t) ((dat1 V c).after 10 t) = _
  rw [after1_10]
  unfold out1_10
  rw [View.canon_unit_zero zero_offsets]
  simp only [View.ld_unit_zero (S := S2000x3) zero_offsets]
  funext y
  have ht := point_lt t
  have hy : (y 0).val < 2000 := (y 0).isLt
  have hR : 2000 * t.val + (y 0).val < 50000 := by omega
  rw [eq_ix2 y]
  show k1_pay1 (F := Ideal) (iblk1 V c 2 t) (k1_pay3 (iblk1 V c 3 t)) (ix2 (y 0) (y 1))
    = nodePArr (n := 50000) (V c main_arg1) (V c main_v49) (((cfg1.win 10).blk t).view.emb (ix2 (y 0) (y 1)))
  rw [p_block_emb t (y 0) (y 1) hR]
  exact p_entry (iblk1 V c 2 t) (iblk1 V c 3 t) (V c main_arg1) (V c main_v49) (y 0) ⟨2000 * t.val + (y 0).val, hR⟩ (y 1)
    (position_block V c t (y 0) (y 1) hR) (translation_block V c t (y 0) (y 1) hR)

/-! ## The blocks cover the arrays -/

/-- An index of the feature output is in point `t`'s block iff each coordinate is in the block's range on its axis. -/
private theorem x_mem_block (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v54_0).slice (win1_9.rect t)).set ↔ _
  rw [View.set_slice_whole, Rect.mem_set_unit]
  exact Iff.rfl

/-- An index of the position output is in point `t`'s block iff each coordinate is in the block's range on its axis. -/
private theorem p_mem_block (t : Fin cfg1.N) (i : S50000x3.Idx) :
    i ∈ ((cfg1.win 10).blk t).view.set ↔ ∀ a : Fin 2, win1_10.index t a * S2000x3.size a ≤ (i a).val
      ∧ (i a).val < win1_10.index t a * S2000x3.size a + S2000x3.size a := by
  show i ∈ ((View.whole main_v54_1).slice (win1_10.rect t)).set ↔ _
  rw [View.set_slice_whole, Rect.mem_set_unit]
  exact Iff.rfl

/-- Row `r` of the feature output is in the block of point `r / 2000`. -/
private theorem x_cover (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hq : (i 0).val / 2000 < cfg1.N := lt_of_lt_of_eq (by omega : (i 0).val / 2000 < 25) N_1.symm
  refine ⟨⟨(i 0).val / 2000, hq⟩, flush1_9 _, ?_⟩
  rw [x_mem_block]
  have e := (block_indices ⟨(i 0).val / 2000, hq⟩).2.2.2.2.2.2.2.2.2.1
  intro a
  match a with
  | ⟨0, _⟩ =>
    show win1_9.index ⟨(i 0).val / 2000, hq⟩ (0 : Fin 2) * 2000 ≤ (i 0).val
      ∧ (i 0).val < win1_9.index ⟨(i 0).val / 2000, hq⟩ (0 : Fin 2) * 2000 + 2000
    rw [e.1]; show (i 0).val / 2000 * 2000 ≤ (i 0).val ∧ (i 0).val < (i 0).val / 2000 * 2000 + 2000; omega
  | ⟨1, _⟩ =>
    show win1_9.index ⟨(i 0).val / 2000, hq⟩ (1 : Fin 2) * 128 ≤ (i 1).val
      ∧ (i 1).val < win1_9.index ⟨(i 0).val / 2000, hq⟩ (1 : Fin 2) * 128 + 128
    rw [e.2]; omega

/-- Row `r` of the position output is in the block of point `r / 2000`. -/
private theorem p_cover (i : S50000x3.Idx) : ∃ t : Fin cfg1.N, (cfg1.win 10).flush t = true ∧ i ∈ ((cfg1.win 10).blk t).view.set := by
  have hi0 : (i 0).val < 50000 := (i 0).isLt
  have hi1 : (i 1).val < 3 := (i 1).isLt
  have hq : (i 0).val / 2000 < cfg1.N := lt_of_lt_of_eq (by omega : (i 0).val / 2000 < 25) N_1.symm
  refine ⟨⟨(i 0).val / 2000, hq⟩, flush1_10 _, ?_⟩
  rw [p_mem_block]
  have e := (block_indices ⟨(i 0).val / 2000, hq⟩).2.2.2.2.2.2.2.2.2.2
  intro a
  match a with
  | ⟨0, _⟩ =>
    show win1_10.index ⟨(i 0).val / 2000, hq⟩ (0 : Fin 2) * 2000 ≤ (i 0).val
      ∧ (i 0).val < win1_10.index ⟨(i 0).val / 2000, hq⟩ (0 : Fin 2) * 2000 + 2000
    rw [e.1]; show (i 0).val / 2000 * 2000 ≤ (i 0).val ∧ (i 0).val < (i 0).val / 2000 * 2000 + 2000; omega
  | ⟨1, _⟩ =>
    show win1_10.index ⟨(i 0).val / 2000, hq⟩ (1 : Fin 2) * 3 ≤ (i 1).val
      ∧ (i 1).val < win1_10.index ⟨(i 0).val / 2000, hq⟩ (1 : Fin 2) * 3 + 3
    rw [e.2]; omega

/-! ## The arrays after the region -/

/-- The new-feature array after the region. -/
theorem x_arr (c : Dev nD) :
    (dat1 V c).arrAt 9 cfg1.N
      = nodeXArr (n := 50000) (V c main_arg0) (V c main_v46) (V c main_v50) (V c main_v51) (V c main_v52) (V c main_arg8)
          (V c main_v53) :=
  (dat1 V c).arrAt_eq_of_cover 9 _ (fun t _ => x_flushed V c t) x_cover

/-- The new-position array after the region. -/
theorem p_arr (c : Dev nD) :
    (dat1 V c).arrAt 10 cfg1.N = nodePArr (n := 50000) (V c main_arg1) (V c main_v49) :=
  (dat1 V c).arrAt_eq_of_cover 10 _ (fun t _ => p_flushed V c t) p_cover

end Cert.KernelIdeal.NodeRegion

end
-- ==== Proof.LayoutSpec.lean ====
/-
  Three printed layout operations as the plain index functions of `Spec.lean`:
  a slice of consecutive rows of a matrix is `Egnn.rowsFrom`; a vector cast to a one-row matrix is `Egnn.asRow`; a one-column
  array joined, along the columns, with a three-column array is `Egnn.joinDR` (column 0 from the first, columns 1 to 3 from the
  second).
-/
import proofs.«117221_j38938173506036_1_alg».proof.Proof.Spec
import proofs.«117221_j38938173506036_1_alg».proof.Proof.LayoutRead

noncomputable section

namespace Cert.Egnn

open Idealize.ShloMosaic Idealize.ShloMosaic.ValueIdx

/-- Rows `o` to `o + h − 1` of a matrix, as a slice. -/
theorem slice_rows_eq {R w : ℕ} (o h : ℕ) (ho : o + h ≤ R) (x : Arr R w)
    (hs : (⟨2, ![R, w]⟩ : Shape).Slices ![o, 0] ⟨2, ![h, w]⟩) :
    extractStridedSlice ⟨2, ![h, w]⟩ ![o, 0] x hs = rowsFrom o h ho x := by
  funext i
  rw [eq_ix2 i]
  exact slice2_axis0_apply o x hs (i 0) (i 1) _ rfl

/-- A vector cast to a matrix of one row. -/
theorem shapeCast_asRow {w : ℕ} (b : Arr1 w) (hc : (⟨1, ![w]⟩ : Shape).ShapeCasts ⟨2, ![1, w]⟩) :
    shapeCast ⟨2, ![1, w]⟩ b hc = asRow b := by
  funext i
  rw [eq_ix2 i]
  exact shapeCast_a_1a_apply b hc (i 0) (i 1)

/-- One column joined with three columns along the column axis. -/
theorem concat_joinDR {n : ℕ} (d : Arr n 1) (r : Arr n 3)
    (h : Shape.Concatenates [(⟨2, ![n, 1]⟩ : Shape), ⟨2, ![n, 3]⟩] ⟨2, ![n, 4]⟩ 1) :
    concatenate ⟨2, ![n, 4]⟩ 1 [⟨⟨2, ![n, 1]⟩, d⟩, ⟨⟨2, ![n, 3]⟩, r⟩] h = joinDR d r := by
  funext j
  unfold joinDR
  by_cases h0 : (j 1).val = 0
  · rw [dif_pos h0]
    refine concatenate_pair_apply_left 1 d r h j rfl _ fun b => ?_
    match b with
    | ⟨0, _⟩ => rfl
    | ⟨1, _⟩ => exact h0.symm
  · rw [dif_neg h0]
    have hj : (j 1).val < 4 := (j 1).isLt
    refine concatenate_pair_apply_right 1 d r h j rfl rfl _ (fun b hb => ?_) ?_
    · match b with
      | ⟨0, _⟩ => rfl
      | ⟨1, _⟩ => exact absurd rfl hb
    · show (j 1).val - 1 + 1 = (j 1).val
      omega

end Cert.Egnn

end
-- ==== Proof.LibHostRead.lean ====
/-
  Reading one buffer after a straight line of host operations, one operation at a time.

  `StableHlo.after ops V` folds the operations' results from the contents `V`. For a line in which every buffer is
  written at most once, the buffer the `k`-th operation writes holds, after the WHOLE line, that operation's result
  over the contents after the first `k` operations (nothing later writes it); and a buffer that nothing from position
  `k` on writes holds, after the whole line, what it held after the first `k` operations. Together they read a stage
  from its operands AT THE SAME BOUNDARY, so a long line is read in as many small steps as it has operations, with
  every shared operand read once.
-/
import Idealize.ShloMosaic.Lib.StableHlo.Run

namespace Idealize.ShloMosaic.StableHlo

variable {nD : Nat} {τ : Topo} {sig : RefSig} {Val : EltTy → Type}

/-- The contents after two lines in a row: the second line from the contents after the first. -/
theorem after_append' (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- After the whole line, the buffer `b` holds what the `k`-th operation leaves in it over the contents after the first
    `k` operations, when no later operation writes `b`. -/
theorem after_at (ops : List (HloOp τ sig Val)) (V : Valuation τ sig Val) (k : Nat) (op : HloOp τ sig Val)
    (post : List (HloOp τ sig Val)) (hk : ops.drop k = op :: post) (b : DevRef τ sig) (hb : ∀ o ∈ post, b ∉ o.writes) :
    after ops V b = op.result (after (ops.take k) V) b := by
  conv_lhs => rw [← List.take_append_drop k ops, hk]
  rw [after_append', after_cons, after_of_forall_not_mem post _ hb]

/-- After the whole line, a buffer that neither the `k`-th operation nor any later one writes holds what it held after
    the first `k` operations. -/
theorem after_before (ops : List (HloOp τ sig Val)) (V : Valuation τ sig Val) (k : Nat) (op : HloOp τ sig Val)
    (post : List (HloOp τ sig Val)) (hk : ops.drop k = op :: post) (b : DevRef τ sig) (hop : b ∉ op.writes)
    (hb : ∀ o ∈ post, b ∉ o.writes) :
    after ops V b = after (ops.take k) V b := by
  conv_lhs => rw [← List.take_append_drop k ops, hk]
  rw [after_append', after_cons, after_of_forall_not_mem post _ hb, op.result_of_not_mem _ hop]

end Idealize.ShloMosaic.StableHlo
-- ==== Proof.HostStretch.lean ====
/-
  What the two kernel regions find in their operands.

  Before the edge region the host gathers the feature rows and the positions at the two ends of every edge, forms the
  coordinate differences and their squared length, joins them into one four-column array, cuts the first weight matrix
  into its three stretches of rows and reads the bias vectors as one-row matrices. These are the very operations the
  reference applies to the same arguments, so each operand is stated as the reference's own stage of the launch arguments
  (the gathers, the differences, the squared distance) or as the plain index function of `Spec.lean` (the cuts and casts).
  Between the regions the host adds every edge's message and translation into its row-end node, from zeros: again the
  reference's own scatter-add, here applied to whatever the edge region left in its two output arrays.
-/
import proofs.«117221_j38938173506036_1_alg».proof.Proof.KernelIdealFrame
import proofs.«117221_j38938173506036_1_alg».proof.Proof.Gen.ReferenceIdeal.Read
import proofs.«117221_j38938173506036_1_alg».proof.Proof.LayoutSpec
import proofs.«117221_j38938173506036_1_alg».proof.Proof.LibHostRead
import Idealize.ShloMosaic.Lib.StableHlo.Run

set_option maxRecDepth 16384

noncomputable section

namespace Cert.KernelIdeal.HostStretch

open Cert.KernelIdeal Cert.KernelIdeal.Gen Cert.KernelIdeal.GenP Cert.Egnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The one operation at hand writes another buffer than the one in the goal. -/
local macro "writes_elsewhere" : tactic =>
  `(tactic| (simp only [nullary_writes, unary_writes, binary_writes, ternary_writes, reshape_writes, Finset.mem_singleton]
             exact devRef_ne_of_ne (by decide)))

/-- Every operation of a literal list writes another buffer than the one in the goal. -/
local macro "later_write_elsewhere" : tactic =>
  `(tactic| (simp only [List.Forall, nullary_writes, unary_writes, binary_writes, ternary_writes, reshape_writes, Finset.mem_singleton]
             repeat' apply And.intro
             all_goals exact devRef_ne_of_ne (by decide)))

/-! ## The arguments at every boundary -/

/-- Argument 0 is written by no host operation and by no region: it holds its launch contents at every boundary. -/
theorem w1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg0 (c : Dev nD) : W2 m ρ c (Proc.devRef .tc main_arg0) = m ((c : Thread nD τ).loc main_arg0) :=
  (W2_of_ne m ρ c main_arg0 (by decide)).trans (w1_arg0 m ρ c)
theorem w3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg0 m ρ c)

/-- Argument 1 is written by no host operation and by no region: it holds its launch contents at every boundary. -/
theorem w1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg1 (c : Dev nD) : W2 m ρ c (Proc.devRef .tc main_arg1) = m ((c : Thread nD τ).loc main_arg1) :=
  (W2_of_ne m ρ c main_arg1 (by decide)).trans (w1_arg1 m ρ c)
theorem w3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg1 m ρ c)

/-- Argument 2 is written by no host operation and by no region: it holds its launch contents at every boundary. -/
theorem w1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg2 (c : Dev nD) : W2 m ρ c (Proc.devRef .tc main_arg2) = m ((c : Thread nD τ).loc main_arg2) :=
  (W2_of_ne m ρ c main_arg2 (by decide)).trans (w1_arg2 m ρ c)
theorem w3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg2 m ρ c)

/-- Argument 3 is written by no host operation and by no region: it holds its launch contents at every boundary. -/
theorem w1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg3 (c : Dev nD) : W2 m ρ c (Proc.devRef .tc main_arg3) = m ((c : Thread nD τ).loc main_arg3) :=
  (W2_of_ne m ρ c main_arg3 (by decide)).trans (w1_arg3 m ρ c)
theorem w3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg3 m ρ c)

/-- Argument 4 is written by no host operation and by no region: it holds its launch contents at every boundary. -/
theorem w1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 5 is written by no host operation and by no region: it holds its launch contents at every boundary. -/
theorem w1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg5 (c : Dev nD) : W2 m ρ c (Proc.devRef .tc main_arg5) = m ((c : Thread nD τ).loc main_arg5) :=
  (W2_of_ne m ρ c main_arg5 (by decide)).trans (w1_arg5 m ρ c)
theorem w3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg5 m ρ c)

/-- Argument 6 is written by no host operation and by no region: it holds its launch contents at every boundary. -/
theorem w1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg6 (c : Dev nD) : W2 m ρ c (Proc.devRef .tc main_arg6) = m ((c : Thread nD τ).loc main_arg6) :=
  (W2_of_ne m ρ c main_arg6 (by decide)).trans (w1_arg6 m ρ c)
theorem w3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg6 m ρ c)

/-- Argument 7 is written by no host operation and by no region: it holds its launch contents at every boundary. -/
theorem w1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg7 (c : Dev nD) : W2 m ρ c (Proc.devRef .tc main_arg7) = m ((c : Thread nD τ).loc main_arg7) :=
  (W2_of_ne m ρ c main_arg7 (by decide)).trans (w1_arg7 m ρ c)
theorem w3_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg7 m ρ c)

/-- Argument 8 is written by no host operation and by no region: it holds its launch contents at every boundary. -/
theorem w1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg8 (c : Dev nD) : W2 m ρ c (Proc.devRef .tc main_arg8) = m ((c : Thread nD τ).loc main_arg8) :=
  (W2_of_ne m ρ c main_arg8 (by decide)).trans (w1_arg8 m ρ c)
theorem w3_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg8 m ρ c)

/-- Argument 9 is written by no host operation and by no region: it holds its launch contents at every boundary. -/
theorem w1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg9 (c : Dev nD) : W2 m ρ c (Proc.devRef .tc main_arg9) = m ((c : Thread nD τ).loc main_arg9) :=
  (W2_of_ne m ρ c main_arg9 (by decide)).trans (w1_arg9 m ρ c)
theorem w3_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg9 m ρ c)

/-- Argument 10 is written by no host operation and by no region: it holds its launch contents at every boundary. -/
theorem w1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 11 is written by no host operation and by no region: it holds its launch contents at every boundary. -/
theorem w1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg11 (c : Dev nD) : W2 m ρ c (Proc.devRef .tc main_arg11) = m ((c : Thread nD τ).loc main_arg11) :=
  (W2_of_ne m ρ c main_arg11 (by decide)).trans (w1_arg11 m ρ c)
theorem w3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg11 m ρ c)

/-- Argument 12 is written by no host operation and by no region: it holds its launch contents at every boundary. -/
theorem w1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem w2_arg12 (c : Dev nD) : W2 m ρ c (Proc.devRef .tc main_arg12) = m ((c : Thread nD τ).loc main_arg12) :=
  (W2_of_ne m ρ c main_arg12 (by decide)).trans (w1_arg12 m ρ c)
theorem w3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_arg12 m ρ c)

/-! ## Before the edge region -/

/-- The row ends of the edges, as the reference reads them off the edge list. -/
theorem w1_v1 (c : Dev nD) : W1 m ρ c (Proc.devRef .tc main_v1) = Cert.ReferenceIdeal.Read.val_main_v1 (F := Ideal) (m ((c : Thread nD τ).loc main_arg12)) := by
  show StableHlo.after hostOps0 (W0 m ρ c) (Proc.devRef .tc main_v1) = _
  after_results
  rfl

/-- The column ends of the edges, as the reference reads them off the edge list. -/
theorem w1_v3 (c : Dev nD) : W1 m ρ c (Proc.devRef .tc main_v3) = Cert.ReferenceIdeal.Read.val_main_v3 (F := Ideal) (m ((c : Thread nD τ).loc main_arg12)) := by
  show StableHlo.after hostOps0 (W0 m ρ c) (Proc.devRef .tc main_v3) = _
  after_results
  rfl

/-- The feature rows gathered at the edges' row ends. -/
theorem w1_v10 (c : Dev nD) : W1 m ρ c (Proc.devRef .tc main_v10) = Cert.ReferenceIdeal.Read.val_main_v28 (F := Ideal) (m ((c : Thread nD τ).loc main_arg0)) (m ((c : Thread nD τ).loc main_arg12)) := by
  show StableHlo.after hostOps0 (W0 m ρ c) (Proc.devRef .tc main_v10) = _
  after_results
  rfl

/-! ### The rest of the stretch, one operation at a time

  Each operation's result buffer is read from its operands at the same boundary (the line writes every buffer once), and
  is the reference's stage of the same name in its own numbering: the index normalisations, the two position gathers, the
  coordinate differences, their squares, the squared distance. -/

/-- Host operation 13 of the stretch: the reference's same stage. -/
theorem k_c_1 (c : Dev nD) : W1 m ρ c (Proc.devRef .tc main_c_1)
    = Cert.ReferenceIdeal.Read.val_main_c_5 (F := Ideal) := by
  show after hostOps0 (W0 m ρ c) (Proc.devRef .tc main_c_1) = _
  rw [after_at hostOps0 (W0 m ρ c) 13 _ _ rfl (Proc.devRef .tc main_c_1) (List.forall_iff_forall_mem.mp (by later_write_elsewhere))]
  refine (nullary_result _ _ _ _).trans ?_
  rfl

/-- Host operation 14 of the stretch: the reference's same stage. -/
theorem k_v11 (c : Dev nD) : W1 m ρ c (Proc.devRef .tc main_v11)
    = Cert.ReferenceIdeal.Read.val_main_v29 (F := Ideal) := by
  show after hostOps0 (W0 m ρ c) (Proc.devRef .tc main_v11) = _
  rw [after_at hostOps0 (W0 m ρ c) 14 _ _ rfl (Proc.devRef .tc main_v11) (List.forall_iff_forall_mem.mp (by later_write_elsewhere))]
  refine (unary_result _ _ _ _ _ _).trans ?_
  rw [← after_before hostOps0 (W0 m ρ c) 14 _ _ rfl (Proc.devRef .tc main_c_1) (by writes_elsewhere) (List.forall_iff_forall_mem.mp (by later_write_elsewhere)),
    show after hostOps0 (W0 m ρ c) (Proc.devRef .tc main_c_1) = _ from k_c_1 m ρ c]
  rfl

/-- Host operation 15 of the stretch: the reference's same stage. -/
theorem k_v12 (c : Dev nD) : W1 m ρ c (Proc.devRef .tc main_v12)
    = Cert.ReferenceIdeal.Read.val_main_v30 (F := Ideal) (m ((c : Thread nD τ).loc main_arg12)) := by
  show after hostOps0 (W0 m ρ c) (Proc.devRef .tc main_v12) = _
  rw [after_at hostOps0 (W0 m ρ c) 15 _ _ rfl (Proc.devRef .tc main_v12) (List.forall_iff_forall_mem.mp (by later_write_elsewhere))]
  refine (binary_result _ _ _ _ _ _ _ _).trans ?_
  rw [← after_before hostOps0 (W0 m ρ c) 15 _ _ rfl (Proc.devRef .tc main_v3) (by writes_elsewhere) (List.forall_iff_forall_mem.mp (by later_write_elsewhere)),
    show after hostOps0 (W0 m ρ c) (Proc.devRef .tc main_v3) = _ from w1_v3 m ρ c]
  rw [← after_before hostOps0 (W0 m ρ c) 15 _ _ rfl (Proc.devRef .tc main_v11) (by writes_elsewhere) (List.forall_iff_forall_mem.mp (by later_write_elsewhere)),
    show after hostOps0 (W0 m ρ c) (Proc.devRef .tc main_v11) = _ from k_v11 m ρ c]
  rfl

/-- Host operation 16 of the stretch: the reference's same stage. -/
theorem k_c_2 (c : Dev nD) : W1 m ρ c (Proc.devRef .tc main_c_2)
    = Cert.ReferenceIdeal.Read.val_main_c_6 (F := Ideal) := by
  show after hostOps0 (W0 m ρ c) (Proc.devRef .tc main_c_2) = _
  rw [after_at hostOps0 (W0 m ρ c) 16 _ _ rfl (Proc.devRef .tc main_c_2) (List.forall_iff_forall_mem.mp (by later_write_elsewhere))]
  refine (nullary_result _ _ _ _).trans ?_
  rfl

/-- Host operation 17 of the stretch: the reference's same stage. -/
theorem k_v13 (c : Dev nD) : W1 m ρ c (Proc.devRef .tc main_v13)
    = Cert.ReferenceIdeal.Read.val_main_v31 (F := Ideal) := by
  show after hostOps0 (W0 m ρ c) (Proc.devRef .tc main_v13) = _
  rw [after_at hostOps0 (W0 m ρ c) 17 _ _ rfl (Proc.devRef .tc main_v13) (List.forall_iff_forall_mem.mp (by later_write_elsewhere))]
  refine (unary_result _ _ _ _ _ _).trans ?_
  rw [← after_before hostOps0 (W0 m ρ c) 17 _ _ rfl (Proc.devRef .tc main_c_2) (by writes_elsewhere) (List.forall_iff_forall_mem.mp (by later_write_elsewhere)),
    show after hostOps0 (W0 m ρ c) (Proc.devRef .tc main_c_2) = _ from k_c_2 m ρ c]
  rfl

/-- Host operation 18 of the stretch: the reference's same stage. -/
theorem k_v14 (c : Dev nD) : W1 m ρ c (Proc.devRef .tc main_v14)
    = Cert.ReferenceIdeal.Read.val_main_v32 (F := Ideal) (m ((c : Thread nD τ).loc main_arg12)) := by
  show after hostOps0 (W0 m ρ c) (Proc.devRef .tc main_v14) = _
  rw [after_at hostOps0 (W0 m ρ c) 18 _ _ rfl (Proc.devRef .tc main_v14) (List.forall_iff_forall_mem.mp (by later_write_elsewhere))]
  refine (binary_result _ _ _ _ _ _ _ _).trans ?_
  rw [← after_before hostOps0 (W0 m ρ c) 18 _ _ rfl (Proc.devRef .tc main_v3) (by writes_elsewhere) (List.forall_iff_forall_mem.mp (by later_write_elsewhere)),
    show after hostOps0 (W0 m ρ c) (Proc.devRef .tc main_v3) = _ from w1_v3 m ρ c]
  rw [← after_before hostOps0 (W0 m ρ c) 18 _ _ rfl (Proc.devRef .tc main_v13) (by writes_elsewhere) (List.forall_iff_forall_mem.mp (by later_write_elsewhere)),
    show after hostOps0 (W0 m ρ c) (Proc.devRef .tc main_v13) = _ from k_v13 m ρ c]
  rfl

/-- Host operation 19 of the stretch: the reference's same stage. -/
theorem k_v15 (c : Dev nD) : W1 m ρ c (Proc.devRef .tc main_v15)
    = Cert.ReferenceIdeal.Read.val_main_v33 (F := Ideal) (m ((c : Thread nD τ).loc main_arg12)) := by
  show after hostOps0 (W0 m ρ c) (Proc.devRef .tc main_v15) = _
  rw [after_at hostOps0 (W0 m ρ c) 19 _ _ rfl (Proc.devRef .tc main_v15) (List.forall_iff_forall_mem.mp (by later_write_elsewhere))]
  refine (ternary_result _ _ _ _ _ _ _ _ _ _).trans ?_
  rw [← after_before hostOps0 (W0 m ρ c) 19 _ _ rfl (Proc.devRef .tc main_v12) (by writes_elsewhere) (List.forall_iff_forall_mem.mp (by later_write_elsewhere)),
    show after hostOps0 (W0 m ρ c) (Proc.devRef .tc main_v12) = _ from k_v12 m ρ c]
  rw [← after_before hostOps0 (W0 m ρ c) 19 _ _ rfl (Proc.devRef .tc main_v14) (by writes_elsewhere) (List.forall_iff_forall_mem.mp (by later_write_elsewhere)),
    show after hostOps0 (W0 m ρ c) (Proc.devRef .tc main_v14) = _ from k_v14 m ρ c]
  rw [← after_before hostOps0 (W0 m ρ c) 19 _ _ rfl (Proc.devRef .tc main_v3) (by writes_elsewhere) (List.forall_iff_forall_mem.mp (by later_write_elsewhere)),
    show after hostOps0 (W0 m ρ c) (Proc.devRef .tc main_v3) = _ from w1_v3 m ρ c]
  rfl

/-- Host operation 20 of the stretch: the reference's same stage. -/
theorem k_v16 (c : Dev nD) : W1 m ρ c (Proc.devRef .tc main_v16)
    = Cert.ReferenceIdeal.Read.val_main_v34 (F := Ideal) (m ((c : Thread nD τ).loc main_arg12)) := by
  show after hostOps0 (W0 m ρ c) (Proc.devRef .tc main_v16) = _
  rw [after_at hostOps0 (W0 m ρ c) 20 _ _ rfl (Proc.devRef .tc main_v16) (List.forall_iff_forall_mem.mp (by later_write_elsewhere))]
  refine (unary_result _ _ _ _ _ _).trans ?_
  rw [← after_before hostOps0 (W0 m ρ c) 20 _ _ rfl (Proc.devRef .tc main_v15) (by writes_elsewhere) (List.forall_iff_forall_mem.mp (by later_write_elsewhere)),
    show after hostOps0 (W0 m ρ c) (Proc.devRef .tc main_v15) = _ from k_v15 m ρ c]
  rfl

/-- The feature rows gathered at the edges' column ends. -/
theorem w1_v17 (c : Dev nD) : W1 m ρ c (Proc.devRef .tc main_v17)
    = Cert.ReferenceIdeal.Read.val_main_v35 (F := Ideal) (m ((c : Thread nD τ).loc main_arg0)) (m ((c : Thread nD τ).loc main_arg12)) := by
  show after hostOps0 (W0 m ρ c) (Proc.devRef .tc main_v17) = _
  rw [after_at hostOps0 (W0 m ρ c) 21 _ _ rfl (Proc.devRef .tc main_v17) (List.forall_iff_forall_mem.mp (by later_write_elsewhere))]
  refine (binary_result _ _ _ _ _ _ _ _).trans ?_
  rw [← after_before hostOps0 (W0 m ρ c) 21 _ _ rfl (Proc.devRef .tc main_arg0) (by writes_elsewhere) (List.forall_iff_forall_mem.mp (by later_write_elsewhere)),
    show after hostOps0 (W0 m ρ c) (Proc.devRef .tc main_arg0) = _ from w1_arg0 m ρ c]
  rw [← after_before hostOps0 (W0 m ρ c) 21 _ _ rfl (Proc.devRef .tc main_v16) (by writes_elsewhere) (List.forall_iff_forall_mem.mp (by later_write_elsewhere)),
    show after hostOps0 (W0 m ρ c) (Proc.devRef .tc main_v16) = _ from k_v16 m ρ c]
  rfl

/-- Host operation 22 of the stretch: the reference's same stage. -/
theorem k_c_3 (c : Dev nD) : W1 m ρ c (Proc.devRef .tc main_c_3)
    = Cert.ReferenceIdeal.Read.val_main_c (F := Ideal) := by
  show after hostOps0 (W0 m ρ c) (Proc.devRef .tc main_c_3) = _
  rw [after_at hostOps0 (W0 m ρ c) 22 _ _ rfl (Proc.devRef .tc main_c_3) (List.forall_iff_forall_mem.mp (by later_write_elsewhere))]
  refine (nullary_result _ _ _ _).trans ?_
  rfl

/-- Host operation 23 of the stretch: the reference's same stage. -/
theorem k_v18 (c : Dev nD) : W1 m ρ c (Proc.devRef .tc main_v18)
    = Cert.ReferenceIdeal.Read.val_main_v4 (F := Ideal) := by
  show after hostOps0 (W0 m ρ c) (Proc.devRef .tc main_v18) = _
  rw [after_at hostOps0 (W0 m ρ c) 23 _ _ rfl (Proc.devRef .tc main_v18) (List.forall_iff_forall_mem.mp (by later_write_elsewhere))]
  refine (unary_result _ _ _ _ _ _).trans ?_
  rw [← after_before hostOps0 (W0 m ρ c) 23 _ _ rfl (Proc.devRef .tc main_c_3) (by writes_elsewhere) (List.forall_iff_forall_mem.mp (by later_write_elsewhere)),
    show after hostOps0 (W0 m ρ c) (Proc.devRef .tc main_c_3) = _ from k_c_3 m ρ c]
  rfl

/-- Host operation 24 of the stretch: the reference's same stage. -/
theorem k_v19 (c : Dev nD) : W1 m ρ c (Proc.devRef .tc main_v19)
    = Cert.ReferenceIdeal.Read.val_main_v5 (F := Ideal) (m ((c : Thread nD τ).loc main_arg12)) := by
  show after hostOps0 (W0 m ρ c) (Proc.devRef .tc main_v19) = _
  rw [after_at hostOps0 (W0 m ρ c) 24 _ _ rfl (Proc.devRef .tc main_v19) (List.forall_iff_forall_mem.mp (by later_write_elsewhere))]
  refine (binary_result _ _ _ _ _ _ _ _).trans ?_
  rw [← after_before hostOps0 (W0 m ρ c) 24 _ _ rfl (Proc.devRef .tc main_v1) (by writes_elsewhere) (List.forall_iff_forall_mem.mp (by later_write_elsewhere)),
    show after hostOps0 (W0 m ρ c) (Proc.devRef .tc main_v1) = _ from w1_v1 m ρ c]
  rw [← after_before hostOps0 (W0 m ρ c) 24 _ _ rfl (Proc.devRef .tc main_v18) (by writes_elsewhere) (List.forall_iff_forall_mem.mp (by later_write_elsewhere)),
    show after hostOps0 (W0 m ρ c) (Proc.devRef .tc main_v18) = _ from k_v18 m ρ c]
  rfl

/-- Host operation 25 of the stretch: the reference's same stage. -/
theorem k_c_4 (c : Dev nD) : W1 m ρ c (Proc.devRef .tc main_c_4)
    = Cert.ReferenceIdeal.Read.val_main_c_0 (F := Ideal) := by
  show after hostOps0 (W0 m ρ c) (Proc.devRef .tc main_c_4) = _
  rw [after_at hostOps0 (W0 m ρ c) 25 _ _ rfl (Proc.devRef .tc main_c_4) (List.forall_iff_forall_mem.mp (by later_write_elsewhere))]
  refine (nullary_result _ _ _ _).trans ?_
  rfl

/-- Host operation 26 of the stretch: the reference's same stage. -/
theorem k_v20 (c : Dev nD) : W1 m ρ c (Proc.devRef .tc main_v20)
    = Cert.ReferenceIdeal.Read.val_main_v6 (F := Ideal) := by
  show after hostOps0 (W0 m ρ c) (Proc.devRef .tc main_v20) = _
  rw [after_at hostOps0 (W0 m ρ c) 26 _ _ rfl (Proc.devRef .tc main_v20) (List.forall_iff_forall_mem.mp (by later_write_elsewhere))]
  refine (unary_result _ _ _ _ _ _).trans ?_
  rw [← after_before hostOps0 (W0 m ρ c) 26 _ _ rfl (Proc.devRef .tc main_c_4) (by writes_elsewhere) (List.forall_iff_forall_mem.mp (by later_write_elsewhere)),
    show after hostOps0 (W0 m ρ c) (Proc.devRef .tc main_c_4) = _ from k_c_4 m ρ c]
  rfl

/-- Host operation 27 of the stretch: the reference's same stage. -/
theorem k_v21 (c : Dev nD) : W1 m ρ c (Proc.devRef .tc main_v21)
    = Cert.ReferenceIdeal.Read.val_main_v7 (F := Ideal) (m ((c : Thread nD τ).loc main_arg12)) := by
  show after hostOps0 (W0 m ρ c) (Proc.devRef .tc main_v21) = _
  rw [after_at hostOps0 (W0 m ρ c) 27 _ _ rfl (Proc.devRef .tc main_v21) (List.forall_iff_forall_mem.mp (by later_write_elsewhere))]
  refine (binary_result _ _ _ _ _ _ _ _).trans ?_
  rw [← after_before hostOps0 (W0 m ρ c) 27 _ _ rfl (Proc.devRef .tc main_v1) (by writes_elsewhere) (List.forall_iff_forall_mem.mp (by later_write_elsewhere)),
    show after hostOps0 (W0 m ρ c) (Proc.devRef .tc main_v1) = _ from w1_v1 m ρ c]
  rw [← after_before hostOps0 (W0 m ρ c) 27 _ _ rfl (Proc.devRef .tc main_v20) (by writes_elsewhere) (List.forall_iff_forall_mem.mp (by later_write_elsewhere)),
    show after hostOps0 (W0 m ρ c) (Proc.devRef .tc main_v20) = _ from k_v20 m ρ c]
  rfl

/-- Host operation 28 of the stretch: the reference's same stage. -/
theorem k_v22 (c : Dev nD) : W1 m ρ c (Proc.devRef .tc main_v22)
    = Cert.ReferenceIdeal.Read.val_main_v8 (F := Ideal) (m ((c : Thread nD τ).loc main_arg12)) := by
  show after hostOps0 (W0 m ρ c) (Proc.devRef .tc main_v22) = _
  rw [after_at hostOps0 (W0 m ρ c) 28 _ _ rfl (Proc.devRef .tc main_v22) (List.forall_iff_forall_mem.mp (by later_write_elsewhere))]
  refine (ternary_result _ _ _ _ _ _ _ _ _ _).trans ?_
  rw [← after_before hostOps0 (W0 m ρ c) 28 _ _ rfl (Proc.devRef .tc main_v19) (by writes_elsewhere) (List.forall_iff_forall_mem.mp (by later_write_elsewhere)),
    show after hostOps0 (W0 m ρ c) (Proc.devRef .tc main_v19) = _ from k_v19 m ρ c]
  rw [← after_before hostOps0 (W0 m ρ c) 28 _ _ rfl (Proc.devRef .tc main_v21) (by writes_elsewhere) (List.forall_iff_forall_mem.mp (by later_write_elsewhere)),
    show after hostOps0 (W0 m ρ c) (Proc.devRef .tc main_v21) = _ from k_v21 m ρ c]
  rw [← after_before hostOps0 (W0 m ρ c) 28 _ _ rfl (Proc.devRef .tc main_v1) (by writes_elsewhere) (List.forall_iff_forall_mem.mp (by later_write_elsewhere)),
    show after hostOps0 (W0 m ρ c) (Proc.devRef .tc main_v1) = _ from w1_v1 m ρ c]
  rfl

/-- Host operation 29 of the stretch: the reference's same stage. -/
theorem k_v23 (c : Dev nD) : W1 m ρ c (Proc.devRef .tc main_v23)
    = Cert.ReferenceIdeal.Read.val_main_v9 (F := Ideal) (m ((c : Thread nD τ).loc main_arg12)) := by
  show after hostOps0 (W0 m ρ c) (Proc.devRef .tc main_v23) = _
  rw [after_at hostOps0 (W0 m ρ c) 29 _ _ rfl (Proc.devRef .tc main_v23) (List.forall_iff_forall_mem.mp (by later_write_elsewhere))]
  refine (unary_result _ _ _ _ _ _).trans ?_
  rw [← after_before hostOps0 (W0 m ρ c) 29 _ _ rfl (Proc.devRef .tc main_v22) (by writes_elsewhere) (List.forall_iff_forall_mem.mp (by later_write_elsewhere)),
    show after hostOps0 (W0 m ρ c) (Proc.devRef .tc main_v22) = _ from k_v22 m ρ c]
  rfl

/-- The positions gathered at the edges' row ends. -/
theorem k_v24 (c : Dev nD) : W1 m ρ c (Proc.devRef .tc main_v24)
    = Cert.ReferenceIdeal.Read.val_main_v10 (F := Ideal) (m ((c : Thread nD τ).loc main_arg1)) (m ((c : Thread nD τ).loc main_arg12)) := by
  show after hostOps0 (W0 m ρ c) (Proc.devRef .tc main_v24) = _
  rw [after_at hostOps0 (W0 m ρ c) 30 _ _ rfl (Proc.devRef .tc main_v24) (List.forall_iff_forall_mem.mp (by later_write_elsewhere))]
  refine (binary_result _ _ _ _ _ _ _ _).trans ?_
  rw [← after_before hostOps0 (W0 m ρ c) 30 _ _ rfl (Proc.devRef .tc main_arg1) (by writes_elsewhere) (List.forall_iff_forall_mem.mp (by later_write_elsewhere)),
    show after hostOps0 (W0 m ρ c) (Proc.devRef .tc main_arg1) = _ from w1_arg1 m ρ c]
  rw [← after_before hostOps0 (W0 m ρ c) 30 _ _ rfl (Proc.devRef .tc main_v23) (by writes_elsewhere) (List.forall_iff_forall_mem.mp (by later_write_elsewhere)),
    show after hostOps0 (W0 m ρ c) (Proc.devRef .tc main_v23) = _ from k_v23 m ρ c]
  rfl

/-- Host operation 31 of the stretch: the reference's same stage. -/
theorem k_c_5 (c : Dev nD) : W1 m ρ c (Proc.devRef .tc main_c_5)
    = Cert.ReferenceIdeal.Read.val_main_c_1 (F := Ideal) := by
  show after hostOps0 (W0 m ρ c) (Proc.devRef .tc main_c_5) = _
  rw [after_at hostOps0 (W0 m ρ c) 31 _ _ rfl (Proc.devRef .tc main_c_5) (List.forall_iff_forall_mem.mp (by later_write_elsewhere))]
  refine (nullary_result _ _ _ _).trans ?_
  rfl

/-- Host operation 32 of the stretch: the reference's same stage. -/
theorem k_v25 (c : Dev nD) : W1 m ρ c (Proc.devRef .tc main_v25)
    = Cert.ReferenceIdeal.Read.val_main_v11 (F := Ideal) := by
  show after hostOps0 (W0 m ρ c) (Proc.devRef .tc main_v25) = _
  rw [after_at hostOps0 (W0 m ρ c) 32 _ _ rfl (Proc.devRef .tc main_v25) (List.forall_iff_forall_mem.mp (by later_write_elsewhere))]
  refine (unary_result _ _ _ _ _ _).trans ?_
  rw [← after_before hostOps0 (W0 m ρ c) 32 _ _ rfl (Proc.devRef .tc main_c_5) (by writes_elsewhere) (List.forall_iff_forall_mem.mp (by later_write_elsewhere)),
    show after hostOps0 (W0 m ρ c) (Proc.devRef .tc main_c_5) = _ from k_c_5 m ρ c]
  rfl

/-- Host operation 33 of the stretch: the reference's same stage. -/
theorem k_v26 (c : Dev nD) : W1 m ρ c (Proc.devRef .tc main_v26)
    = Cert.ReferenceIdeal.Read.val_main_v12 (F := Ideal) (m ((c : Thread nD τ).loc main_arg12)) := by
  show after hostOps0 (W0 m ρ c) (Proc.devRef .tc main_v26) = _
  rw [after_at hostOps0 (W0 m ρ c) 33 _ _ rfl (Proc.devRef .tc main_v26) (List.forall_iff_forall_mem.mp (by later_write_elsewhere))]
  refine (binary_result _ _ _ _ _ _ _ _).trans ?_
  rw [← after_before hostOps0 (W0 m ρ c) 33 _ _ rfl (Proc.devRef .tc main_v3) (by writes_elsewhere) (List.forall_iff_forall_mem.mp (by later_write_elsewhere)),
    show after hostOps0 (W0 m ρ c) (Proc.devRef .tc main_v3) = _ from w1_v3 m ρ c]
  rw [← after_before hostOps0 (W0 m ρ c) 33 _ _ rfl (Proc.devRef .tc main_v25) (by writes_elsewhere) (List.forall_iff_forall_mem.mp (by later_write_elsewhere)),
    show after hostOps0 (W0 m ρ c) (Proc.devRef .tc main_v25) = _ from k_v25 m ρ c]
  rfl

/-- Host operation 34 of the stretch: the reference's same stage. -/
theorem k_c_6 (c : Dev nD) : W1 m ρ c (Proc.devRef .tc main_c_6)
    = Cert.ReferenceIdeal.Read.val_main_c_2 (F := Ideal) := by
  show after hostOps0 (W0 m ρ c) (Proc.devRef .tc main_c_6) = _
  rw [after_at hostOps0 (W0 m ρ c) 34 _ _ rfl (Proc.devRef .tc main_c_6) (List.forall_iff_forall_mem.mp (by later_write_elsewhere))]
  refine (nullary_result _ _ _ _).trans ?_
  rfl

/-- Host operation 35 of the stretch: the reference's same stage. -/
theorem k_v27 (c : Dev nD) : W1 m ρ c (Proc.devRef .tc main_v27)
    = Cert.ReferenceIdeal.Read.val_main_v13 (F := Ideal) := by
  show after hostOps0 (W0 m ρ c) (Proc.devRef .tc main_v27) = _
  rw [after_at hostOps0 (W0 m ρ c) 35 _ _ rfl (Proc.devRef .tc main_v27) (List.forall_iff_forall_mem.mp (by later_write_elsewhere))]
  refine (unary_result _ _ _ _ _ _).trans ?_
  rw [← after_before hostOps0 (W0 m ρ c) 35 _ _ rfl (Proc.devRef .tc main_c_6) (by writes_elsewhere) (List.forall_iff_forall_mem.mp (by later_write_elsewhere)),
    show after hostOps0 (W0 m ρ c) (Proc.devRef .tc main_c_6) = _ from k_c_6 m ρ c]
  rfl

/-- Host operation 36 of the stretch: the reference's same stage. -/
theorem k_v28 (c : Dev nD) : W1 m ρ c (Proc.devRef .tc main_v28)
    = Cert.ReferenceIdeal.Read.val_main_v14 (F := Ideal) (m ((c : Thread nD τ).loc main_arg12)) := by
  show after hostOps0 (W0 m ρ c) (Proc.devRef .tc main_v28) = _
  rw [after_at hostOps0 (W0 m ρ c) 36 _ _ rfl (Proc.devRef .tc main_v28) (List.forall_iff_forall_mem.mp (by later_write_elsewhere))]
  refine (binary_result _ _ _ _ _ _ _ _).trans ?_
  rw [← after_before hostOps0 (W0 m ρ c) 36 _ _ rfl (Proc.devRef .tc main_v3) (by writes_elsewhere) (List.forall_iff_forall_mem.mp (by later_write_elsewhere)),
    show after hostOps0 (W0 m ρ c) (Proc.devRef .tc main_v3) = _ from w1_v3 m ρ c]
  rw [← after_before hostOps0 (W0 m ρ c) 36 _ _ rfl (Proc.devRef .tc main_v27) (by writes_elsewhere) (List.forall_iff_forall_mem.mp (by later_write_elsewhere)),
    show after hostOps0 (W0 m ρ c) (Proc.devRef .tc main_v27) = _ from k_v27 m ρ c]
  rfl

/-- Host operation 37 of the stretch: the reference's same stage. -/
theorem k_v29 (c : Dev nD) : W1 m ρ c (Proc.devRef .tc main_v29)
    = Cert.ReferenceIdeal.Read.val_main_v15 (F := Ideal) (m ((c : Thread nD τ).loc main_arg12)) := by
  show after hostOps0 (W0 m ρ c) (Proc.devRef .tc main_v29) = _
  rw [after_at hostOps0 (W0 m ρ c) 37 _ _ rfl (Proc.devRef .tc main_v29) (List.forall_iff_forall_mem.mp (by later_write_elsewhere))]
  refine (ternary_result _ _ _ _ _ _ _ _ _ _).trans ?_
  rw [← after_before hostOps0 (W0 m ρ c) 37 _ _ rfl (Proc.devRef .tc main_v26) (by writes_elsewhere) (List.forall_iff_forall_mem.mp (by later_write_elsewhere)),
    show after hostOps0 (W0 m ρ c) (Proc.devRef .tc main_v26) = _ from k_v26 m ρ c]
  rw [← after_before hostOps0 (W0 m ρ c) 37 _ _ rfl (Proc.devRef .tc main_v28) (by writes_elsewhere) (List.forall_iff_forall_mem.mp (by later_write_elsewhere)),
    show after hostOps0 (W0 m ρ c) (Proc.devRef .tc main_v28) = _ from k_v28 m ρ c]
  rw [← after_before hostOps0 (W0 m ρ c) 37 _ _ rfl (Proc.devRef .tc main_v3) (by writes_elsewhere) (List.forall_iff_forall_mem.mp (by later_write_elsewhere)),
    show after hostOps0 (W0 m ρ c) (Proc.devRef .tc main_v3) = _ from w1_v3 m ρ c]
  rfl

/-- Host operation 38 of the stretch: the reference's same stage. -/
theorem k_v30 (c : Dev nD) : W1 m ρ c (Proc.devRef .tc main_v30)
    = Cert.ReferenceIdeal.Read.val_main_v16 (F := Ideal) (m ((c : Thread nD τ).loc main_arg12)) := by
  show after hostOps0 (W0 m ρ c) (Proc.devRef .tc main_v30) = _
  rw [after_at hostOps0 (W0 m ρ c) 38 _ _ rfl (Proc.devRef .tc main_v30) (List.forall_iff_forall_mem.mp (by later_write_elsewhere))]
  refine (unary_result _ _ _ _ _ _).trans ?_
  rw [← after_before hostOps0 (W0 m ρ c) 38 _ _ rfl (Proc.devRef .tc main_v29) (by writes_elsewhere) (List.forall_iff_forall_mem.mp (by later_write_elsewhere)),
    show after hostOps0 (W0 m ρ c) (Proc.devRef .tc main_v29) = _ from k_v29 m ρ c]
  rfl

/-- The positions gathered at the edges' column ends. -/
theorem k_v31 (c : Dev nD) : W1 m ρ c (Proc.devRef .tc main_v31)
    = Cert.ReferenceIdeal.Read.val_main_v17 (F := Ideal) (m ((c : Thread nD τ).loc main_arg1)) (m ((c : Thread nD τ).loc main_arg12)) := by
  show after hostOps0 (W0 m ρ c) (Proc.devRef .tc main_v31) = _
  rw [after_at hostOps0 (W0 m ρ c) 39 _ _ rfl (Proc.devRef .tc main_v31) (List.forall_iff_forall_mem.mp (by later_write_elsewhere))]
  refine (binary_result _ _ _ _ _ _ _ _).trans ?_
  rw [← after_before hostOps0 (W0 m ρ c) 39 _ _ rfl (Proc.devRef .tc main_arg1) (by writes_elsewhere) (List.forall_iff_forall_mem.mp (by later_write_elsewhere)),
    show after hostOps0 (W0 m ρ c) (Proc.devRef .tc main_arg1) = _ from w1_arg1 m ρ c]
  rw [← after_before hostOps0 (W0 m ρ c) 39 _ _ rfl (Proc.devRef .tc main_v30) (by writes_elsewhere) (List.forall_iff_forall_mem.mp (by later_write_elsewhere)),
    show after hostOps0 (W0 m ρ c) (Proc.devRef .tc main_v30) = _ from k_v30 m ρ c]
  rfl

/-- The coordinate differences. -/
theorem k_v32 (c : Dev nD) : W1 m ρ c (Proc.devRef .tc main_v32)
    = Cert.ReferenceIdeal.Read.val_main_v18 (F := Ideal) (m ((c : Thread nD τ).loc main_arg1)) (m ((c : Thread nD τ).loc main_arg12)) := by
  show after hostOps0 (W0 m ρ c) (Proc.devRef .tc main_v32) = _
  rw [after_at hostOps0 (W0 m ρ c) 40 _ _ rfl (Proc.devRef .tc main_v32) (List.forall_iff_forall_mem.mp (by later_write_elsewhere))]
  refine (binary_result _ _ _ _ _ _ _ _).trans ?_
  rw [← after_before hostOps0 (W0 m ρ c) 40 _ _ rfl (Proc.devRef .tc main_v24) (by writes_elsewhere) (List.forall_iff_forall_mem.mp (by later_write_elsewhere)),
    show after hostOps0 (W0 m ρ c) (Proc.devRef .tc main_v24) = _ from k_v24 m ρ c]
  rw [← after_before hostOps0 (W0 m ρ c) 40 _ _ rfl (Proc.devRef .tc main_v31) (by writes_elsewhere) (List.forall_iff_forall_mem.mp (by later_write_elsewhere)),
    show after hostOps0 (W0 m ρ c) (Proc.devRef .tc main_v31) = _ from k_v31 m ρ c]
  rfl

/-- Their squares. -/
theorem k_v33 (c : Dev nD) : W1 m ρ c (Proc.devRef .tc main_v33)
    = Cert.ReferenceIdeal.Read.val_main_v19 (F := Ideal) (m ((c : Thread nD τ).loc main_arg1)) (m ((c : Thread nD τ).loc main_arg12)) := by
  show after hostOps0 (W0 m ρ c) (Proc.devRef .tc main_v33) = _
  rw [after_at hostOps0 (W0 m ρ c) 41 _ _ rfl (Proc.devRef .tc main_v33) (List.forall_iff_forall_mem.mp (by later_write_elsewhere))]
  refine (binary_result _ _ _ _ _ _ _ _).trans ?_
  rw [← after_before hostOps0 (W0 m ρ c) 41 _ _ rfl (Proc.devRef .tc main_v32) (by writes_elsewhere) (List.forall_iff_forall_mem.mp (by later_write_elsewhere)),
    show after hostOps0 (W0 m ρ c) (Proc.devRef .tc main_v32) = _ from k_v32 m ρ c]
  rfl

/-- Host operation 42 of the stretch: the reference's same stage. -/
theorem k_cst (c : Dev nD) : W1 m ρ c (Proc.devRef .tc main_cst)
    = Cert.ReferenceIdeal.Read.val_main_cst (F := Ideal) := by
  show after hostOps0 (W0 m ρ c) (Proc.devRef .tc main_cst) = _
  rw [after_at hostOps0 (W0 m ρ c) 42 _ _ rfl (Proc.devRef .tc main_cst) (List.forall_iff_forall_mem.mp (by later_write_elsewhere))]
  refine (nullary_result _ _ _ _).trans ?_
  rfl

/-- The squared distance, one number an edge. -/
theorem k_v34 (c : Dev nD) : W1 m ρ c (Proc.devRef .tc main_v34)
    = Cert.ReferenceIdeal.Read.val_main_v20 (F := Ideal) (m ((c : Thread nD τ).loc main_arg1)) (m ((c : Thread nD τ).loc main_arg12)) := by
  show after hostOps0 (W0 m ρ c) (Proc.devRef .tc main_v34) = _
  rw [after_at hostOps0 (W0 m ρ c) 43 _ _ rfl (Proc.devRef .tc main_v34) (List.forall_iff_forall_mem.mp (by later_write_elsewhere))]
  refine (binary_result _ _ _ _ _ _ _ _).trans ?_
  rw [← after_before hostOps0 (W0 m ρ c) 43 _ _ rfl (Proc.devRef .tc main_v33) (by writes_elsewhere) (List.forall_iff_forall_mem.mp (by later_write_elsewhere)),
    show after hostOps0 (W0 m ρ c) (Proc.devRef .tc main_v33) = _ from k_v33 m ρ c]
  rw [← after_before hostOps0 (W0 m ρ c) 43 _ _ rfl (Proc.devRef .tc main_cst) (by writes_elsewhere) (List.forall_iff_forall_mem.mp (by later_write_elsewhere)),
    show after hostOps0 (W0 m ρ c) (Proc.devRef .tc main_cst) = _ from k_cst m ρ c]
  rfl

/-- The squared distance as a column. -/
theorem k_v35 (c : Dev nD) : W1 m ρ c (Proc.devRef .tc main_v35)
    = Cert.ReferenceIdeal.Read.val_main_v21 (F := Ideal) (m ((c : Thread nD τ).loc main_arg1)) (m ((c : Thread nD τ).loc main_arg12)) := by
  show after hostOps0 (W0 m ρ c) (Proc.devRef .tc main_v35) = _
  rw [after_at hostOps0 (W0 m ρ c) 44 _ _ rfl (Proc.devRef .tc main_v35) (List.forall_iff_forall_mem.mp (by later_write_elsewhere))]
  refine (unary_result _ _ _ _ _ _).trans ?_
  rw [← after_before hostOps0 (W0 m ρ c) 44 _ _ rfl (Proc.devRef .tc main_v34) (by writes_elsewhere) (List.forall_iff_forall_mem.mp (by later_write_elsewhere)),
    show after hostOps0 (W0 m ρ c) (Proc.devRef .tc main_v34) = _ from k_v34 m ρ c]
  rfl

/-- The squared distance beside the three coordinate differences. -/
theorem w1_v36 (c : Dev nD) : W1 m ρ c (Proc.devRef .tc main_v36)
    = joinDR (Cert.ReferenceIdeal.Read.val_main_v21 (F := Ideal) (m ((c : Thread nD τ).loc main_arg1)) (m ((c : Thread nD τ).loc main_arg12))) (Cert.ReferenceIdeal.Read.val_main_v18 (F := Ideal) (m ((c : Thread nD τ).loc main_arg1)) (m ((c : Thread nD τ).loc main_arg12))) := by
  show after hostOps0 (W0 m ρ c) (Proc.devRef .tc main_v36) = _
  rw [after_at hostOps0 (W0 m ρ c) 45 _ _ rfl (Proc.devRef .tc main_v36) (List.forall_iff_forall_mem.mp (by later_write_elsewhere))]
  refine (binary_result _ _ _ _ _ _ _ _).trans ?_
  rw [← after_before hostOps0 (W0 m ρ c) 45 _ _ rfl (Proc.devRef .tc main_v35) (by writes_elsewhere) (List.forall_iff_forall_mem.mp (by later_write_elsewhere)),
    show after hostOps0 (W0 m ρ c) (Proc.devRef .tc main_v35) = _ from k_v35 m ρ c]
  rw [← after_before hostOps0 (W0 m ρ c) 45 _ _ rfl (Proc.devRef .tc main_v32) (by writes_elsewhere) (List.forall_iff_forall_mem.mp (by later_write_elsewhere)),
    show after hostOps0 (W0 m ρ c) (Proc.devRef .tc main_v32) = _ from k_v32 m ρ c]
  exact concat_joinDR _ _ _

/-- Rows 0 to 127 of the first edge weight matrix. -/
theorem w1_v37 (c : Dev nD) : W1 m ρ c (Proc.devRef .tc main_v37) = rowsFrom 0 128 (by omega) (m ((c : Thread nD τ).loc main_arg2)) := by
  show StableHlo.after hostOps0 (W0 m ρ c) (Proc.devRef .tc main_v37) = _
  after_results
  exact slice_rows_eq 0 128 _ _ _

/-- Rows 128 to 255 of the first edge weight matrix. -/
theorem w1_v38 (c : Dev nD) : W1 m ρ c (Proc.devRef .tc main_v38) = rowsFrom 128 128 (by omega) (m ((c : Thread nD τ).loc main_arg2)) := by
  show StableHlo.after hostOps0 (W0 m ρ c) (Proc.devRef .tc main_v38) = _
  after_results
  exact slice_rows_eq 128 128 _ _ _

/-- Row 256 of the first edge weight matrix. -/
theorem w1_v39 (c : Dev nD) : W1 m ρ c (Proc.devRef .tc main_v39) = rowsFrom 256 1 (by omega) (m ((c : Thread nD τ).loc main_arg2)) := by
  show StableHlo.after hostOps0 (W0 m ρ c) (Proc.devRef .tc main_v39) = _
  after_results
  exact slice_rows_eq 256 1 _ _ _

/-- The first edge bias as a one-row matrix. -/
theorem w1_v40 (c : Dev nD) : W1 m ρ c (Proc.devRef .tc main_v40) = asRow (m ((c : Thread nD τ).loc main_arg3)) := by
  show StableHlo.after hostOps0 (W0 m ρ c) (Proc.devRef .tc main_v40) = _
  after_results
  exact shapeCast_asRow _ _

/-- The second edge bias as a one-row matrix. -/
theorem w1_v41 (c : Dev nD) : W1 m ρ c (Proc.devRef .tc main_v41) = asRow (m ((c : Thread nD τ).loc main_arg5)) := by
  show StableHlo.after hostOps0 (W0 m ρ c) (Proc.devRef .tc main_v41) = _
  after_results
  exact shapeCast_asRow _ _

/-- The gate's bias as a one-by-one matrix. -/
theorem w1_v42 (c : Dev nD) : W1 m ρ c (Proc.devRef .tc main_v42) = asRow (m ((c : Thread nD τ).loc main_arg11)) := by
  show StableHlo.after hostOps0 (W0 m ρ c) (Proc.devRef .tc main_v42) = _
  after_results
  exact shapeCast_asRow _ _

/-! ## Between the regions -/

/-- The row ends are not touched by the edge region. -/
theorem w2_v1 (c : Dev nD) : W2 m ρ c (Proc.devRef .tc main_v1) = Cert.ReferenceIdeal.Read.val_main_v1 (F := Ideal) (m ((c : Thread nD τ).loc main_arg12)) :=
  (W2_of_ne m ρ c main_v1 (by decide)).trans (w1_v1 m ρ c)

/-- The aggregated messages: the reference's scatter-add, from zeros, of what the edge region left in its first output. -/
theorem w3_v46 (c : Dev nD) : W3 m ρ c (Proc.devRef .tc main_v46)
    = (Host.scatterAdd (F := Ideal) Cert.ReferenceIdeal.scatter_S50000x128_S800000x1_S800000x128_1_0_0_1 (Cert.ReferenceIdeal.Read.val_main_v59 (F := Ideal))
        (Cert.ReferenceIdeal.Read.val_main_v60 (F := Ideal) (m ((c : Thread nD τ).loc main_arg12))) (W2 m ρ c (Proc.devRef .tc main_v43_0)) : FVec Ideal Cert.ReferenceIdeal.S50000x128 .f32) := by
  show StableHlo.after hostOps1 (W2 m ρ c) (Proc.devRef .tc main_v46) = _
  after_results
  rw [w2_v1]
  rfl

/-- The aggregated translations: the same from the edge region's second output. -/
theorem w3_v49 (c : Dev nD) : W3 m ρ c (Proc.devRef .tc main_v49)
    = (Host.scatterAdd (F := Ideal) Cert.ReferenceIdeal.scatter_S50000x3_S800000x1_S800000x3_1_0_0_1 (Cert.ReferenceIdeal.Read.val_main_v91 (F := Ideal))
        (Cert.ReferenceIdeal.Read.val_main_v92 (F := Ideal) (m ((c : Thread nD τ).loc main_arg12))) (W2 m ρ c (Proc.devRef .tc main_v43_1)) : FVec Ideal Cert.ReferenceIdeal.S50000x3 .f32) := by
  show StableHlo.after hostOps1 (W2 m ρ c) (Proc.devRef .tc main_v49) = _
  after_results
  rw [w2_v1]
  rfl

/-- Rows 0 to 127 of the first node weight matrix. -/
theorem w3_v50 (c : Dev nD) : W3 m ρ c (Proc.devRef .tc main_v50) = rowsFrom 0 128 (by omega) (m ((c : Thread nD τ).loc main_arg6)) := by
  show StableHlo.after hostOps1 (W2 m ρ c) (Proc.devRef .tc main_v50) = _
  after_results
  rw [w2_arg6]
  exact slice_rows_eq 0 128 _ _ _

/-- Rows 128 to 255 of the first node weight matrix. -/
theorem w3_v51 (c : Dev nD) : W3 m ρ c (Proc.devRef .tc main_v51) = rowsFrom 128 128 (by omega) (m ((c : Thread nD τ).loc main_arg6)) := by
  show StableHlo.after hostOps1 (W2 m ρ c) (Proc.devRef .tc main_v51) = _
  after_results
  rw [w2_arg6]
  exact slice_rows_eq 128 128 _ _ _

/-- The first node bias as a one-row matrix. -/
theorem w3_v52 (c : Dev nD) : W3 m ρ c (Proc.devRef .tc main_v52) = asRow (m ((c : Thread nD τ).loc main_arg7)) := by
  show StableHlo.after hostOps1 (W2 m ρ c) (Proc.devRef .tc main_v52) = _
  after_results
  rw [w2_arg7]
  exact shapeCast_asRow _ _

/-- The second node bias as a one-row matrix. -/
theorem w3_v53 (c : Dev nD) : W3 m ρ c (Proc.devRef .tc main_v53) = asRow (m ((c : Thread nD τ).loc main_arg9)) := by
  show StableHlo.after hostOps1 (W2 m ρ c) (Proc.devRef .tc main_v53) = _
  after_results
  rw [w2_arg9]
  exact shapeCast_asRow _ _

end Cert.KernelIdeal.HostStretch

end
-- ==== Proof.RefEdge.lean ====
/-
  The reference's edge stage is the row-wise edge functions of its own gathered rows.

  The reference joins the two gathered feature rows and the squared distance into one 257-entry row and multiplies by
  the whole first weight matrix. A sum over the 257 joined entries is the sum over the first 128 (the row-end features
  against rows 0 to 127 of the matrix), the next 128 (the column-end features against rows 128 to 255) and the last
  (the squared distance against row 256): that is `Egnn.edgeH1`. The reference's logistic is spelled `1 / (1 + e^(−v))`,
  which is the logistic function itself. Everything after the first layer is the same expression on both sides.
-/
import proofs.«117221_j38938173506036_1_alg».proof.Proof.Gen.ReferenceIdeal.Read
import proofs.«117221_j38938173506036_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefEdge

open Cert.ReferenceIdeal Cert.ReferenceIdeal.Read Cert.Egnn Idealize.ShloMosaic Idealize.ShloMosaic.ValueIdx

variable (x0 : (⟨S50000x128, .f32⟩ : BufTy).Contents (Elt Ideal)) (x1 : (⟨S50000x3, .f32⟩ : BufTy).Contents (Elt Ideal))
  (x2 : (⟨S257x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x1, .f32⟩ : BufTy).Contents (Elt Ideal)) (x11 : (⟨S1, .f32⟩ : BufTy).Contents (Elt Ideal))
  (x12 : (⟨S2x800000, .i32⟩ : BufTy).Contents (Elt Ideal))

/-- The joined row at a position below 128 is the row-end feature at that position. -/
private theorem v36_fst (e : Fin 800000) (k : Fin 128) :
    val_main_v36 (F := Ideal) x0 x1 x12 (ix2 e (⟨k.val, by omega⟩ : Fin 257))
      = val_main_v28 (F := Ideal) x0 x12 (ix2 e k) := by
  unfold val_main_v36
  generalize val_main_v28 (F := Ideal) x0 x12 = a
  generalize val_main_v35 (F := Ideal) x0 x12 = b
  generalize val_main_v21 (F := Ideal) x1 x12 = c
  exact concatenate_apply_piece (t := S800000x257) 1 [⟨S800000x128, a⟩, ⟨S800000x128, b⟩, ⟨S800000x1, c⟩]
    Cert.ReferenceIdeal.Gen.concatenates_S800000x128_S800000x128_S800000x1_S800000x257_d1 (ix2 e (⟨k.val, by omega⟩ : Fin 257))
    0 (by show 0 < 3; omega) S800000x128 a rfl rfl 0 rfl (ix2 e k)
    (fun bb hb => by match bb with | ⟨0, _⟩ => rfl | ⟨1, _⟩ => exact absurd rfl hb)
    (by show 0 + k.val = k.val; omega)

/-- The joined row at a position 128 + k is the column-end feature at k. -/
private theorem v36_snd (e : Fin 800000) (k : Fin 128) :
    val_main_v36 (F := Ideal) x0 x1 x12 (ix2 e (⟨128 + k.val, by omega⟩ : Fin 257))
      = val_main_v35 (F := Ideal) x0 x12 (ix2 e k) := by
  unfold val_main_v36
  generalize val_main_v28 (F := Ideal) x0 x12 = a
  generalize val_main_v35 (F := Ideal) x0 x12 = b
  generalize val_main_v21 (F := Ideal) x1 x12 = c
  exact concatenate_apply_piece (t := S800000x257) 1 [⟨S800000x128, a⟩, ⟨S800000x128, b⟩, ⟨S800000x1, c⟩]
    Cert.ReferenceIdeal.Gen.concatenates_S800000x128_S800000x128_S800000x1_S800000x257_d1 (ix2 e (⟨128 + k.val, by omega⟩ : Fin 257))
    1 (by show 1 < 3; omega) S800000x128 b rfl rfl 128 rfl (ix2 e k)
    (fun bb hb => by match bb with | ⟨0, _⟩ => rfl | ⟨1, _⟩ => exact absurd rfl hb)
    (by show 128 + k.val = 128 + k.val; rfl)

/-- The joined row at its last position is the squared distance. -/
private theorem v36_last (e : Fin 800000) :
    val_main_v36 (F := Ideal) x0 x1 x12 (ix2 e (⟨256, by omega⟩ : Fin 257))
      = val_main_v21 (F := Ideal) x1 x12 (ix2 e (0 : Fin 1)) := by
  unfold val_main_v36
  generalize val_main_v28 (F := Ideal) x0 x12 = a
  generalize val_main_v35 (F := Ideal) x0 x12 = b
  generalize val_main_v21 (F := Ideal) x1 x12 = c
  exact concatenate_apply_piece (t := S800000x257) 1 [⟨S800000x128, a⟩, ⟨S800000x128, b⟩, ⟨S800000x1, c⟩]
    Cert.ReferenceIdeal.Gen.concatenates_S800000x128_S800000x128_S800000x1_S800000x257_d1 (ix2 e (⟨256, by omega⟩ : Fin 257))
    2 (by show 2 < 3; omega) S800000x1 c rfl rfl 256 rfl (ix2 e (0 : Fin 1))
    (fun bb hb => by match bb with | ⟨0, _⟩ => rfl | ⟨1, _⟩ => exact absurd rfl hb)
    (by show 256 + 0 = 256; rfl)

/-! ## Indices: the generated index functions at a split index are the index of the coordinates -/

private theorem lidx37 (e : Fin 800000) (j : Fin 128) (k : Fin 257) : lidx_main_v37 (ix2 e j) k = ix2 e k :=
  funext fun a => Fin.ext (by match a with | ⟨0, _⟩ => rfl | ⟨1, _⟩ => rfl)
private theorem ridx37 (e : Fin 800000) (j : Fin 128) (k : Fin 257) : ridx_main_v37 (ix2 e j) k = ix2 k j :=
  funext fun a => Fin.ext (by match a with | ⟨0, _⟩ => rfl | ⟨1, _⟩ => rfl)
private theorem idx3839 (e : Fin 800000) (j : Fin 128) : idx_main_v38 (idx_main_v39 (ix2 e j)) = ix1 j :=
  funext fun a => Fin.ext (by match a with | ⟨0, _⟩ => rfl)
private theorem lidx48 (e : Fin 800000) (j : Fin 128) (k : Fin 128) : lidx_main_v48 (ix2 e j) k = ix2 e k :=
  funext fun a => Fin.ext (by match a with | ⟨0, _⟩ => rfl | ⟨1, _⟩ => rfl)
private theorem ridx48 (e : Fin 800000) (j : Fin 128) (k : Fin 128) : ridx_main_v48 (ix2 e j) k = ix2 k j :=
  funext fun a => Fin.ext (by match a with | ⟨0, _⟩ => rfl | ⟨1, _⟩ => rfl)
private theorem idx4950 (e : Fin 800000) (j : Fin 128) : idx_main_v49 (idx_main_v50 (ix2 e j)) = ix1 j :=
  funext fun a => Fin.ext (by match a with | ⟨0, _⟩ => rfl)
private theorem lidx78 (e : Fin 800000) (j : Fin 1) (k : Fin 128) : lidx_main_v78 (ix2 e j) k = ix2 e k :=
  funext fun a => Fin.ext (by match a with | ⟨0, _⟩ => rfl | ⟨1, _⟩ => rfl)
private theorem ridx78 (e : Fin 800000) (k : Fin 128) : ridx_main_v78 (ix2 e (0 : Fin 1)) k = ix2 k (0 : Fin 1) :=
  funext fun a => Fin.ext (by match a with | ⟨0, _⟩ => rfl | ⟨1, _⟩ => rfl)
private theorem idx7980 (e : Fin 800000) (j : Fin 1) : idx_main_v79 (idx_main_v80 (ix2 e j)) = ix1 (0 : Fin 1) :=
  funext fun a => Fin.ext (by match a with | ⟨0, _⟩ => rfl)
private theorem idx89 (e : Fin 800000) (a : Fin 3) : idx_main_v89 (ix2 e a) = ix2 e (0 : Fin 1) :=
  funext fun b => Fin.ext (by match b with | ⟨0, _⟩ => rfl | ⟨1, _⟩ => rfl)

/-! ## The Spec's readers at an index -/

private theorem rowsFrom_at {R w : ℕ} (o h : ℕ) (ho : o + h ≤ R) (x : Arr R w) (k : Fin h) (j : Fin w) :
    rowsFrom o h ho x (ix2 k j) = x (ix2 (⟨o + k.val, by omega⟩ : Fin R) j) := rfl
private theorem asRow_at {w : ℕ} (b : Arr1 w) (j : Fin w) : asRow b (ix2 (0 : Fin 1) j) = b (ix1 j) := rfl
private theorem joinDR_zero {n : ℕ} (d : Arr n 1) (r : Arr n 3) (e : Fin n) :
    joinDR d r (ix2 e (0 : Fin 4)) = d (ix2 e (0 : Fin 1)) := dif_pos rfl
private theorem joinDR_succ {n : ℕ} (d : Arr n 1) (r : Arr n 3) (e : Fin n) (a : Fin 3) :
    joinDR d r (ix2 e (⟨1 + a.val, by omega⟩ : Fin 4)) = r (ix2 e a) := by
  unfold joinDR
  rw [dif_neg (by show ¬ (1 + a.val = 0); omega)]
  congr 1
  funext b
  match b with
  | ⟨0, _⟩ => rfl
  | ⟨1, _⟩ => exact Fin.ext (by show 1 + a.val - 1 = a.val; omega)

/-! ## The reference's stages at an index -/

/-- The reference's logistic, spelled as a quotient with the constant one, times its argument is `silu`. -/
private theorem silu_spelled (v : EReal) :
    FloatOps.mulf (F := Ideal) (φ := .f32) v (FloatOps.hostDivf (FloatOps.ofBits .f32 0x3F800000#32)
      (FloatOps.addf (FloatOps.ofBits .f32 0x3F800000#32) (FloatOps.hostUnary .exp (FloatOps.hostNegf v)))) = silu v := by
  rw [Ideal.ofBits_def, Ideal.ofBits_one_f32]
  exact silu_quot v

/-- The first layer before its activation: the sum over the 257 joined entries, split. -/
private theorem v40_at (e : Fin 800000) (j : Fin 128) :
    val_main_v40 (F := Ideal) x0 x1 x2 x3 x12 (ix2 e j)
      = edgeH1 (fun k => val_main_v28 (F := Ideal) x0 x12 (ix2 e k)) (fun k => val_main_v35 (F := Ideal) x0 x12 (ix2 e k))
          (joinDR (val_main_v21 (F := Ideal) x1 x12) (val_main_v18 (F := Ideal) x1 x12) (ix2 e (0 : Fin 4)))
          (fun k j => rowsFrom 0 128 (by omega) x2 (ix2 k j)) (fun k j => rowsFrom 128 128 (by omega) x2 (ix2 k j))
          (fun j => rowsFrom 256 1 (by omega) x2 (ix2 (0 : Fin 1) j)) (fun j => asRow x3 (ix2 (0 : Fin 1) j)) j := by
  rw [val_main_v40_apply, val_main_v37_apply, val_main_v39_apply, val_main_v38_apply, sum_split_257]
  simp only [lidx37, ridx37, idx3839, v36_fst, v36_snd, v36_last]
  unfold edgeH1
  simp only [rowsFrom_at, asRow_at, joinDR_zero, Nat.zero_add]
  rfl

private theorem v47_at (i : S800000x128.Idx) :
    val_main_v47 (F := Ideal) x0 x1 x2 x3 x12 i = silu (val_main_v40 (F := Ideal) x0 x1 x2 x3 x12 i) := by
  rw [val_main_v47_apply, val_main_v46_apply, val_main_v45_apply, val_main_cst_8_apply, val_main_v44_apply,
    val_main_v43_apply, val_main_cst_7_apply, val_main_v42_apply, val_main_v41_apply]
  exact silu_spelled _

private theorem v51_at (e : Fin 800000) (j : Fin 128) :
    val_main_v51 (F := Ideal) x0 x1 x2 x3 x4 x5 x12 (ix2 e j)
      = (∑ k : Fin 128, val_main_v47 (F := Ideal) x0 x1 x2 x3 x12 (ix2 e k) * x4 (ix2 k j)) + x5 (ix1 j) := by
  rw [val_main_v51_apply, val_main_v48_apply, val_main_v50_apply, val_main_v49_apply]
  simp only [lidx48, ridx48, idx4950]
  rfl

private theorem v58_at (i : S800000x128.Idx) :
    val_main_v58 (F := Ideal) x0 x1 x2 x3 x4 x5 x12 i = silu (val_main_v51 (F := Ideal) x0 x1 x2 x3 x4 x5 x12 i) := by
  rw [val_main_v58_apply, val_main_v57_apply, val_main_v56_apply, val_main_cst_10_apply, val_main_v55_apply,
    val_main_v54_apply, val_main_cst_9_apply, val_main_v53_apply, val_main_v52_apply]
  exact silu_spelled _

/-- The reference's message array (`main_v58`) is `Egnn.edgeMArr` of its gathered rows, its joined distance and
    differences, and the weight matrices cut into the stretches the kernel takes. -/
theorem edge_m :
    val_main_v58 (F := Ideal) x0 x1 x2 x3 x4 x5 x12
      = edgeMArr (n := 800000) (val_main_v28 (F := Ideal) x0 x12) (val_main_v35 (F := Ideal) x0 x12)
          (joinDR (val_main_v21 (F := Ideal) x1 x12) (val_main_v18 (F := Ideal) x1 x12))
          (rowsFrom 0 128 (by omega) x2) (rowsFrom 128 128 (by omega) x2) (rowsFrom 256 1 (by omega) x2) (asRow x3) x4 (asRow x5) := by
  funext i
  obtain ⟨e, j, rfl⟩ : ∃ (e : Fin 800000) (j : Fin 128), i = ix2 e j := ⟨i 0, i 1, eq_ix2 i⟩
  rw [v58_at, v51_at]
  simp only [v47_at, v40_at]
  generalize val_main_v28 (F := Ideal) x0 x12 = A
  generalize val_main_v35 (F := Ideal) x0 x12 = B
  generalize val_main_v21 (F := Ideal) x1 x12 = C
  generalize val_main_v18 (F := Ideal) x1 x12 = D
  rfl

private theorem v88_at (i : S800000x1.Idx) :
    val_main_v88 (F := Ideal) x0 x1 x2 x3 x4 x5 x10 x11 x12 i
      = silu (val_main_v81 (F := Ideal) x0 x1 x2 x3 x4 x5 x10 x11 x12 i) := by
  rw [val_main_v88_apply, val_main_v87_apply, val_main_v86_apply, val_main_cst_15_apply, val_main_v85_apply,
    val_main_v84_apply, val_main_cst_14_apply, val_main_v83_apply, val_main_v82_apply]
  exact silu_spelled _

private theorem v81_at (e : Fin 800000) :
    val_main_v81 (F := Ideal) x0 x1 x2 x3 x4 x5 x10 x11 x12 (ix2 e (0 : Fin 1))
      = (∑ k : Fin 128, val_main_v58 (F := Ideal) x0 x1 x2 x3 x4 x5 x12 (ix2 e k) * x10 (ix2 k (0 : Fin 1)))
          + x11 (ix1 (0 : Fin 1)) := by
  rw [val_main_v81_apply, val_main_v78_apply, val_main_v80_apply, val_main_v79_apply]
  simp only [lidx78, ridx78, idx7980]
  rfl

/-- The reference's translation array (`main_v90`) is `Egnn.edgeTArr` of the same. -/
theorem edge_t :
    val_main_v90 (F := Ideal) x0 x1 x2 x3 x4 x5 x10 x11 x12
      = edgeTArr (n := 800000) (val_main_v28 (F := Ideal) x0 x12) (val_main_v35 (F := Ideal) x0 x12)
          (joinDR (val_main_v21 (F := Ideal) x1 x12) (val_main_v18 (F := Ideal) x1 x12))
          (rowsFrom 0 128 (by omega) x2) (rowsFrom 128 128 (by omega) x2) (rowsFrom 256 1 (by omega) x2) (asRow x3) x4 (asRow x5)
          x10 (asRow x11) := by
  funext i
  obtain ⟨e, a, rfl⟩ : ∃ (e : Fin 800000) (a : Fin 3), i = ix2 e a := ⟨i 0, i 1, eq_ix2 i⟩
  rw [val_main_v90_apply, val_main_v89_apply, idx89, v88_at, v81_at, edge_m]
  unfold edgeTArr edgeW
  rw [joinDR_succ, asRow_at]
  generalize val_main_v28 (F := Ideal) x0 x12 = A
  generalize val_main_v35 (F := Ideal) x0 x12 = B
  generalize val_main_v21 (F := Ideal) x1 x12 = C
  generalize val_main_v18 (F := Ideal) x1 x12 = D
  rfl

end Cert.ReferenceIdeal.RefEdge

end
-- ==== Proof.RefNode.lean ====
/-
  The reference's node stage is the row-wise node functions of the node's row and its aggregated messages.

  The reference joins a node's feature row with its aggregated message row into 256 entries and multiplies by the whole
  first node weight matrix; the sum over the 256 joined entries is the sum over the first 128 (features against rows 0 to
  127) plus the sum over the last 128 (aggregated messages against rows 128 to 255): `Egnn.nodeH`. The position update is
  the old position plus the step size times the aggregated translation, entry by entry.
-/
import proofs.«117221_j38938173506036_1_alg».proof.Proof.Gen.ReferenceIdeal.Read
import proofs.«117221_j38938173506036_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefNode

open Cert.ReferenceIdeal Cert.ReferenceIdeal.Read Cert.Egnn Idealize.ShloMosaic Idealize.ShloMosaic.ValueIdx

variable (x0 : (⟨S50000x128, .f32⟩ : BufTy).Contents (Elt Ideal)) (x1 : (⟨S50000x3, .f32⟩ : BufTy).Contents (Elt Ideal))
  (x2 : (⟨S257x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x1, .f32⟩ : BufTy).Contents (Elt Ideal)) (x11 : (⟨S1, .f32⟩ : BufTy).Contents (Elt Ideal))
  (x12 : (⟨S2x800000, .i32⟩ : BufTy).Contents (Elt Ideal))

/-! ## Indices: the composed index functions of the generated reading, at explicit coordinates -/

private theorem lidx63 (e : Fin 50000) (j : Fin 128) (k : Fin 256) : lidx_main_v63 (ix2 e j) k = ix2 e k :=
  funext fun a => by match a with | ⟨0, _⟩ => rfl | ⟨1, _⟩ => rfl

private theorem ridx63 (e : Fin 50000) (j : Fin 128) (k : Fin 256) : ridx_main_v63 (ix2 e j) k = ix2 k j :=
  funext fun a => by match a with | ⟨0, _⟩ => rfl | ⟨1, _⟩ => rfl

private theorem lidx74 (e : Fin 50000) (j : Fin 128) (k : Fin 128) : lidx_main_v74 (ix2 e j) k = ix2 e k :=
  funext fun a => by match a with | ⟨0, _⟩ => rfl | ⟨1, _⟩ => rfl

private theorem ridx74 (e : Fin 50000) (j : Fin 128) (k : Fin 128) : ridx_main_v74 (ix2 e j) k = ix2 k j :=
  funext fun a => by match a with | ⟨0, _⟩ => rfl | ⟨1, _⟩ => rfl

private theorem bidx65 (e : Fin 50000) (j : Fin 128) : idx_main_v64 (idx_main_v65 (ix2 e j)) = ix1 j :=
  funext fun a => by match a with | ⟨0, _⟩ => rfl

private theorem bidx76 (e : Fin 50000) (j : Fin 128) : idx_main_v75 (idx_main_v76 (ix2 e j)) = ix1 j :=
  funext fun a => by match a with | ⟨0, _⟩ => rfl

/-- Rows 0 to 127 of the first node weight matrix. -/
private theorem rows_lo (k j : Fin 128) :
    rowsFrom 0 128 (by omega) x6 (ix2 k j) = x6 (ix2 (⟨k.val, by omega⟩ : Fin 256) j) :=
  congrArg (fun r : Fin 256 => x6 (ix2 r j)) (Fin.ext (Nat.zero_add k.val))

/-- Rows 128 to 255 of the first node weight matrix. -/
private theorem rows_hi (k j : Fin 128) :
    rowsFrom 128 128 (by omega) x6 (ix2 k j) = x6 (ix2 (⟨128 + k.val, by omega⟩ : Fin 256) j) := rfl

/-! ## The joined row -/

/-- The joined row at an entry of its first half is the node's feature at that entry. -/
private theorem joined_left (e : Fin 50000) (k : Fin 128) :
    val_main_v62 (F := Ideal) x0 x1 x2 x3 x4 x5 x12 (ix2 e (⟨k.val, by omega⟩ : Fin 256)) = x0 (ix2 e k) := by
  unfold val_main_v62
  generalize val_main_v61 (F := Ideal) x0 x1 x2 x3 x4 x5 x12 = a
  exact concatenate_pair_apply_left 1 x0 a Gen.concatenates_S50000x128_S50000x128_S50000x256_d1 _ rfl _
    (fun b => by match b with | ⟨0, _⟩ => rfl | ⟨1, _⟩ => rfl)

/-- The joined row at an entry of its second half is the node's aggregated message, 128 entries earlier. -/
private theorem joined_right (e : Fin 50000) (k : Fin 128) :
    val_main_v62 (F := Ideal) x0 x1 x2 x3 x4 x5 x12 (ix2 e (⟨128 + k.val, by omega⟩ : Fin 256))
      = val_main_v61 (F := Ideal) x0 x1 x2 x3 x4 x5 x12 (ix2 e k) := by
  unfold val_main_v62
  generalize val_main_v61 (F := Ideal) x0 x1 x2 x3 x4 x5 x12 = a
  exact concatenate_pair_apply_right 1 x0 a Gen.concatenates_S50000x128_S50000x128_S50000x256_d1 _ rfl rfl _
    (fun b hb => by match b with | ⟨0, _⟩ => rfl | ⟨1, _⟩ => exact absurd rfl hb)
    (by show k.val + 128 = 128 + k.val; omega)

/-! ## The two layers -/

/-- The first node layer before its activation: the product of the joined row with the whole weight matrix is the
    feature row against the matrix's rows 0 to 127 plus the aggregated messages against its rows 128 to 255. -/
private theorem layer_one (e : Fin 50000) (j : Fin 128) :
    val_main_v66 (F := Ideal) x0 x1 x2 x3 x4 x5 x6 x7 x12 (ix2 e j)
      = nodeH (fun k => x0 (ix2 e k)) (fun k => val_main_v61 (F := Ideal) x0 x1 x2 x3 x4 x5 x12 (ix2 e k))
          (fun k j => rowsFrom 0 128 (by omega) x6 (ix2 k j)) (fun k j => rowsFrom 128 128 (by omega) x6 (ix2 k j))
          (fun j => asRow x7 (ix2 (0 : Fin 1) j)) j := by
  rw [val_main_v66_apply, val_main_v63_apply, val_main_v65_apply, val_main_v64_apply, Ideal.addf_def, sum_split_256,
    bidx65]
  have h1 : ∀ k : Fin 128,
      val_main_v62 (F := Ideal) x0 x1 x2 x3 x4 x5 x12 (lidx_main_v63 (ix2 e j) (⟨k.val, by omega⟩ : Fin 256))
        * x6 (ridx_main_v63 (ix2 e j) (⟨k.val, by omega⟩ : Fin 256))
      = x0 (ix2 e k) * rowsFrom 0 128 (by omega) x6 (ix2 k j) := fun k => by
    rw [lidx63, ridx63, joined_left, rows_lo]
  have h2 : ∀ k : Fin 128,
      val_main_v62 (F := Ideal) x0 x1 x2 x3 x4 x5 x12 (lidx_main_v63 (ix2 e j) (⟨128 + k.val, by omega⟩ : Fin 256))
        * x6 (ridx_main_v63 (ix2 e j) (⟨128 + k.val, by omega⟩ : Fin 256))
      = val_main_v61 (F := Ideal) x0 x1 x2 x3 x4 x5 x12 (ix2 e k) * rowsFrom 128 128 (by omega) x6 (ix2 k j) := fun k => by
    rw [lidx63, ridx63, joined_right, rows_hi]
  rw [Finset.sum_congr rfl fun k _ => h1 k, Finset.sum_congr rfl fun k _ => h2 k]
  rfl

/-- The activated first node layer: the reference spells the logistic function as a quotient. -/
private theorem layer_one_act (e : Fin 50000) (k : Fin 128) :
    val_main_v73 (F := Ideal) x0 x1 x2 x3 x4 x5 x6 x7 x12 (ix2 e k)
      = silu (nodeH (fun k => x0 (ix2 e k)) (fun k => val_main_v61 (F := Ideal) x0 x1 x2 x3 x4 x5 x12 (ix2 e k))
          (fun k j => rowsFrom 0 128 (by omega) x6 (ix2 k j)) (fun k j => rowsFrom 128 128 (by omega) x6 (ix2 k j))
          (fun j => asRow x7 (ix2 (0 : Fin 1) j)) k) := by
  rw [val_main_v73_apply, val_main_v72_apply, val_main_v71_apply, val_main_cst_13_apply, val_main_v70_apply,
    val_main_v69_apply, val_main_cst_12_apply, val_main_v68_apply, val_main_v67_apply, layer_one]
  rw [Ideal.mulf_def, Ideal.hostDivf_def, Ideal.addf_def, Ideal.hostUnary_exp_def, Ideal.hostNegf_def, Ideal.negf_def,
    Ideal.ofBits_def, Ideal.ofBits_one_f32]
  exact silu_quot _

/-- The reference's first result (`main_v77`) is `Egnn.nodeXArr` of the features, the aggregated messages (`main_v61`,
    carried whole) and the node weight matrices cut into the stretches the kernel takes. -/
theorem node_x :
    val_main_v77 (F := Ideal) x0 x1 x2 x3 x4 x5 x6 x7 x8 x9 x12
      = nodeXArr (n := 50000) x0 (val_main_v61 (F := Ideal) x0 x1 x2 x3 x4 x5 x12)
          (rowsFrom 0 128 (by omega) x6) (rowsFrom 128 128 (by omega) x6) (asRow x7) x8 (asRow x9) := by
  funext i
  obtain ⟨e, j, rfl⟩ : ∃ (e : Fin 50000) (j : Fin 128), i = ix2 e j := ⟨i 0, i 1, eq_ix2 i⟩
  rw [val_main_v77_apply, val_main_v74_apply, val_main_v76_apply, val_main_v75_apply, Ideal.addf_def, bidx76]
  have hs : ∀ k : Fin 128,
      val_main_v73 (F := Ideal) x0 x1 x2 x3 x4 x5 x6 x7 x12 (lidx_main_v74 (ix2 e j) k) * x8 (ridx_main_v74 (ix2 e j) k)
      = silu (nodeH (fun k => x0 (ix2 e k)) (fun k => val_main_v61 (F := Ideal) x0 x1 x2 x3 x4 x5 x12 (ix2 e k))
          (fun k j => rowsFrom 0 128 (by omega) x6 (ix2 k j)) (fun k j => rowsFrom 128 128 (by omega) x6 (ix2 k j))
          (fun j => asRow x7 (ix2 (0 : Fin 1) j)) k) * x8 (ix2 k j) := fun k => by
    rw [lidx74, ridx74, layer_one_act]
  rw [Finset.sum_congr rfl fun k _ => hs k]
  generalize val_main_v61 (F := Ideal) x0 x1 x2 x3 x4 x5 x12 = a
  rfl

/-- The reference's second result (`main_v96`) is `Egnn.nodePArr` of the positions and the aggregated translations
    (`main_v93`, carried whole). -/
theorem node_p :
    val_main_v96 (F := Ideal) x0 x1 x2 x3 x4 x5 x10 x11 x12
      = nodePArr (n := 50000) x1 (val_main_v93 (F := Ideal) x0 x1 x2 x3 x4 x5 x10 x11 x12) := by
  funext i
  rw [val_main_v96_apply, val_main_v95_apply, val_main_v94_apply, val_main_cst_17_apply]
  generalize val_main_v93 (F := Ideal) x0 x1 x2 x3 x4 x5 x10 x11 x12 = d
  rfl

end Cert.ReferenceIdeal.RefNode

end
-- ==== Proof.KernelValue.lean ====
/-
  The kernel program's two results are the reference's two results of the same arguments.

  Stage by stage the kernel program's arrays are the reference's: the edge region's operands are the reference's gathered
  rows and joined distances (the host operations before the region), so its message and translation arrays are the
  reference's `main_v58` and `main_v90` (the region's arrays as whole-array functions, and the reference's edge stage as the same
  functions); the host then scatter-adds them exactly as the reference does, giving the reference's `main_v61` and `main_v93`;
  and the node region turns those, with the features and positions, into the reference's `main_v77` and `main_v96`.
-/
import proofs.«117221_j38938173506036_1_alg».proof.Proof.KernelIdealRun
import proofs.«117221_j38938173506036_1_alg».proof.Proof.EdgeRegion
import proofs.«117221_j38938173506036_1_alg».proof.Proof.NodeRegion
import proofs.«117221_j38938173506036_1_alg».proof.Proof.HostStretch
import proofs.«117221_j38938173506036_1_alg».proof.Proof.RefEdge
import proofs.«117221_j38938173506036_1_alg».proof.Proof.RefNode

set_option maxRecDepth 16384

noncomputable section

namespace Cert.KernelIdeal.KernelValue

open Cert.KernelIdeal Cert.KernelIdeal.Gen Cert.KernelIdeal.GenP Cert.Egnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the edge region leaves in its first output: the reference's message array. -/
theorem messages (c : Dev nD) : W2 m ρ c (Proc.devRef .tc main_v43_0)
    = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) := by
  have e10 : V1 m ρ c main_v10 = _ := HostStretch.w1_v10 m ρ c
  have e17 : V1 m ρ c main_v17 = _ := HostStretch.w1_v17 m ρ c
  have e36 : V1 m ρ c main_v36 = _ := HostStretch.w1_v36 m ρ c
  have e37 : V1 m ρ c main_v37 = _ := HostStretch.w1_v37 m ρ c
  have e38 : V1 m ρ c main_v38 = _ := HostStretch.w1_v38 m ρ c
  have e39 : V1 m ρ c main_v39 = _ := HostStretch.w1_v39 m ρ c
  have e40 : V1 m ρ c main_v40 = _ := HostStretch.w1_v40 m ρ c
  have e4 : V1 m ρ c main_arg4 = _ := HostStretch.w1_arg4 m ρ c
  have e41 : V1 m ρ c main_v41 = _ := HostStretch.w1_v41 m ρ c
  refine (W2_arr m ρ c 11).trans ((EdgeRegion.m_arr (V1 m ρ) c).trans ?_)
  rw [e10, e17, e36, e37, e38, e39, e40, e4, e41]
  exact (Cert.ReferenceIdeal.RefEdge.edge_m _ _ _ _ _ _ _).symm

/-- What the edge region leaves in its second output: the reference's translation array. -/
theorem translations (c : Dev nD) : W2 m ρ c (Proc.devRef .tc main_v43_1)
    = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) := by
  have e10 : V1 m ρ c main_v10 = _ := HostStretch.w1_v10 m ρ c
  have e17 : V1 m ρ c main_v17 = _ := HostStretch.w1_v17 m ρ c
  have e36 : V1 m ρ c main_v36 = _ := HostStretch.w1_v36 m ρ c
  have e37 : V1 m ρ c main_v37 = _ := HostStretch.w1_v37 m ρ c
  have e38 : V1 m ρ c main_v38 = _ := HostStretch.w1_v38 m ρ c
  have e39 : V1 m ρ c main_v39 = _ := HostStretch.w1_v39 m ρ c
  have e40 : V1 m ρ c main_v40 = _ := HostStretch.w1_v40 m ρ c
  have e4 : V1 m ρ c main_arg4 = _ := HostStretch.w1_arg4 m ρ c
  have e41 : V1 m ρ c main_v41 = _ := HostStretch.w1_v41 m ρ c
  have e10' : V1 m ρ c main_arg10 = _ := HostStretch.w1_arg10 m ρ c
  have e42 : V1 m ρ c main_v42 = _ := HostStretch.w1_v42 m ρ c
  refine (W2_arr m ρ c 12).trans ((EdgeRegion.t_arr (V1 m ρ) c).trans ?_)
  rw [e10, e17, e36, e37, e38, e39, e40, e4, e41, e10', e42]
  exact (Cert.ReferenceIdeal.RefEdge.edge_t _ _ _ _ _ _ _ _ _).symm

/-- The node region's second operand: the reference's aggregated messages. -/
theorem aggregated (c : Dev nD) : W3 m ρ c (Proc.devRef .tc main_v46)
    = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) := by
  rw [HostStretch.w3_v46, messages]
  rfl

/-- The node region's fourth operand: the reference's aggregated translations. -/
theorem aggregatedT (c : Dev nD) : W3 m ρ c (Proc.devRef .tc main_v49)
    = Cert.ReferenceIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) := by
  rw [HostStretch.w3_v49, translations]
  rfl

/-- The first result. -/
theorem x_new (c : Dev nD) : W4 m ρ c (Proc.devRef .tc main_v54_0)
    = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) := by
  have e0 : V3 m ρ c main_arg0 = _ := HostStretch.w3_arg0 m ρ c
  have e46 : V3 m ρ c main_v46 = _ := aggregated m ρ c
  have e50 : V3 m ρ c main_v50 = _ := HostStretch.w3_v50 m ρ c
  have e51 : V3 m ρ c main_v51 = _ := HostStretch.w3_v51 m ρ c
  have e52 : V3 m ρ c main_v52 = _ := HostStretch.w3_v52 m ρ c
  have e8 : V3 m ρ c main_arg8 = _ := HostStretch.w3_arg8 m ρ c
  have e53 : V3 m ρ c main_v53 = _ := HostStretch.w3_v53 m ρ c
  refine (W4_arr m ρ c 9).trans ((NodeRegion.x_arr (V3 m ρ) c).trans ?_)
  rw [e0, e46, e50, e51, e52, e8, e53]
  exact (Cert.ReferenceIdeal.RefNode.node_x _ _ _ _ _ _ _ _ _ _ _).symm

/-- The second result. -/
theorem p_new (c : Dev nD) : W4 m ρ c (Proc.devRef .tc main_v54_1)
    = Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) := by
  have e1 : V3 m ρ c main_arg1 = _ := HostStretch.w3_arg1 m ρ c
  have e49 : V3 m ρ c main_v49 = _ := aggregatedT m ρ c
  refine (W4_arr m ρ c 10).trans ((NodeRegion.p_arr (V3 m ρ) c).trans ?_)
  rw [e1, e49]
  exact (Cert.ReferenceIdeal.RefNode.node_p _ _ _ _ _ _ _ _ _).symm

end Cert.KernelIdeal.KernelValue

end
-- ==== Proof.lean ====
/-
  One message-passing layer of an equivariant graph network, as two tiled kernels with the gathers and the scatter-adds
  left to the host, against the same layer written with whole-array operations.

  Both programs gather the feature rows and positions at the two ends of every edge, form the coordinate differences and
  their squared length, run a two-layer perceptron with the activation `v · σ(v)` on every edge, add every edge's message
  and gated coordinate difference into its row-end node, and run a two-layer perceptron on every node. They differ in one
  thing: where the reference multiplies a joined row (two feature rows and the distance: 257 entries; a feature row and an
  aggregated message row: 256 entries) by a whole weight matrix, the kernel multiplies each part by its own stretch of the
  matrix's rows and adds the products. A finite sum is the sum of its consecutive stretches, on the extended reals as on the
  reals, so the two agree entry by entry with no appeal to finiteness; the precondition is not used. The changes of float
  format around the kernel's matrix products are the identity at the ideal instance, and the kernel's logistic is the
  reference's `1 / (1 + e^(−v))`.

  The pieces: `Spec` (the row-wise functions and the splitting of sums), `MatmulRead`, `EdgeBlock`, `NodeBlock` (a kernel
  block's entries), `EdgeRegion`, `NodeRegion` (a region's output arrays as whole-array functions), `HostStretch` (the regions'
  operands), `RefEdge`, `RefNode` (the reference's stages as the same functions), `KernelValue` (the chain).
-/
import proofs.«117221_j38938173506036_1_alg».proof.Defs
import proofs.«117221_j38938173506036_1_alg».proof.Proof.Gen.Kernel
import proofs.«117221_j38938173506036_1_alg».proof.Proof.KernelFrame
import proofs.«117221_j38938173506036_1_alg».proof.Proof.Gen.KernelIdeal
import proofs.«117221_j38938173506036_1_alg».proof.Proof.KernelIdealFrame
import proofs.«117221_j38938173506036_1_alg».proof.Proof.KernelIdealRun
import proofs.«117221_j38938173506036_1_alg».proof.Proof.KernelValue
import proofs.«117221_j38938173506036_1_alg».proof.Proof.Gen.ReferenceIdeal
import proofs.«117221_j38938173506036_1_alg».proof.Proof.Gen.ReferenceIdeal.Run
import proofs.«117221_j38938173506036_1_alg».proof.Proof.Gen.ReferenceIdeal.Read
import proofs.«117221_j38938173506036_1_alg».proof.Proof.Gen.Pre_finite_inputs
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.GenP.frame m ρ

/-- The idealized kernel program runs and keeps its arguments. -/
theorem frame_kernelIdeal : Cert.frame_KernelIdeal := fun m ρ _ => Cert.KernelIdeal.GenP.frame m ρ

/-- The reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the reference's two stages `main_v77`, `main_v96` of the (agreeing) arguments. -/
theorem algebraic : Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)),
    fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.x_new m ρ c),
        (h c).2.1.trans (Cert.KernelIdeal.KernelValue.p_new m ρ c), (h c).2.2⟩)
      (Cert.KernelIdeal.GenP.run_named m ρ)
  · refine (θ_run Cert.ReferenceIdeal.defs _ _).mono (fun r h c => ?_) (Cert.ReferenceIdeal.Value.run (F := Ideal) m' ρ')
    obtain ⟨h0, h1, hk⟩ := h c
    obtain ⟨a0, a1, a2, a3, a4, a5, a6, a7, a8, a9, a10, a11, a12⟩ := hagree c
    refine ⟨?_, ?_, hk⟩
    · rw [h0, Cert.ReferenceIdeal.Read.val_main_v77_eq, a0, a1, a2, a3, a4, a5, a6, a7, a8, a9, a12]
    · rw [h1, Cert.ReferenceIdeal.Read.val_main_v96_eq, a0, a1, a2, a3, a4, a5, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
